-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x256 : S_.BroadcastsInDim S64x256 (![] : Fin 0 → Fin S64x256.rank)
  reducesTo_S64x256_S_d0_1 : S64x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x256 .f32) (main_arg9 : FVec F S256 .f32) (main_arg10 : FVec F S256x40 .f32) (main_arg11 : FVec F S40 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S3x64x64 .f32) (main_arg7 : FVec F S3x64 .f32) (main_arg8 : FVec F S64x256 .f32) (main_arg9 : FVec F S256 .f32) (main_arg10 : FVec F S256x40 .f32) (main_arg11 : FVec F S40 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1200000 32) (main_arg2 : FVec F S128x256 .f32) (main_arg3 : FVec F S256 .f32) (main_arg4 : FVec F S256x64 .f32) (main_arg5 : FVec F S64 .f32) (main_arg6 : FVec F S3x64x64 .f32) (main_arg7 : FVec F S3x64 .f32) (main_arg8 : FVec F S64x256 .f32) (main_arg9 : FVec F S256 .f32) (main_arg10 : FVec F S256x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S1x1200000 : Shape := ⟨2, ![1, 1200000]⟩
abbrev S1200000 : Shape := ⟨1, ![1200000]⟩
abbrev S1x256 : Shape := ⟨2, ![1, 256]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S2000x256 : Shape := ⟨2, ![2000, 256]⟩
abbrev S1x64x64 : Shape := ⟨3, ![1, 64, 64]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 79
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S1x256, .f32⟩
  | .hbm, ⟨17, _⟩ => ⟨S1x64, .f32⟩
  | .hbm, ⟨18, _⟩ => ⟨S100000x64, .f32⟩
  | .hbm, ⟨19, _⟩ => ⟨S1x64x64, .f32⟩
  | .hbm, ⟨20, _⟩ => ⟨S64x64, .f32⟩
  | .hbm, ⟨21, _⟩ => ⟨S100000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S_, .f32⟩
  | .hbm, ⟨32, _⟩ => ⟨S100000x64, .f32⟩
  | .hbm, ⟨33, _⟩ => ⟨S1200000x1, .i32⟩
  | .hbm, ⟨34, _⟩ => ⟨S100000x64, .f32⟩
  | .hbm, ⟨35, _⟩ => ⟨S1x64, .f32⟩
  | .hbm, ⟨36, _⟩ => ⟨S64, .f32⟩
  | .hbm, ⟨37, _⟩ => ⟨S1x64x64, .f32⟩
  | .hbm, ⟨38, _⟩ => ⟨S64x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S1x64, .f32⟩
  | .hbm, ⟨55, _⟩ => ⟨S64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1200000, .i32⟩
  | .hbm, ⟨62, _⟩ => ⟨S1200000, .i1⟩
  | .hbm, ⟨63, _⟩ => ⟨S_, .i32⟩
  | .hbm, ⟨64, _⟩ => ⟨S1200000, .i32⟩
  | .hbm, ⟨65, _⟩ => ⟨S1200000, .i32⟩
  | .hbm, ⟨66, _⟩ => ⟨S1200000, .i32⟩
  | .hbm, ⟨67, _⟩ => ⟨S1200000x1, .i32⟩
  | .hbm, ⟨68, _⟩ => ⟨S1200000x64, .f32⟩
  | .hbm, ⟨69, _⟩ => ⟨S_, .f32⟩
  | .hbm, ⟨70, _⟩ => ⟨S100000x64, .f32⟩
  | .hbm, ⟨71, _⟩ => ⟨S1200000x1, .i32⟩
  | .hbm, ⟨72, _⟩ => ⟨S100000x64, .f32⟩
  | .hbm, ⟨73, _⟩ => ⟨S1x64, .f32⟩
  | .hbm, ⟨74, _⟩ => ⟨S64, .f32⟩
  | .hbm, ⟨75, _⟩ => ⟨S1x64, .f32⟩
  | .hbm, ⟨76, _⟩ => ⟨S1x256, .f32⟩
  | .hbm, ⟨77, _⟩ => ⟨S1x40, .f32⟩
  | .hbm, ⟨78, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S64x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S1x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S64x256, .f32⟩
  | .local _ .vmem, ⟨29, _⟩ => ⟨S1x256, .f32⟩
  | .local _ .vmem, ⟨30, _⟩ => ⟨S256x40, .f32⟩
  | .local _ .vmem, ⟨31, _⟩ => ⟨S1x40, .f32⟩
  | .local _ .vmem, ⟨32, _⟩ => ⟨S2000x40, .f32⟩
  | .local _ .vmem, ⟨33, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S256_S1x256 : S256.ShapeCasts S1x256
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S3x64x64_S1x64x64_0_0_0 : S3x64x64.Slices ![0, 0, 0] S1x64x64
  shapeCasts_S1x64x64_S64x64 : S1x64x64.ShapeCasts S64x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x256_S64x256_0_0 : ∀ a, (![0, 0] : Fin 2 → Nat) a + S64x256.size a ≤ S64x256.size a
  h_S64x256 : 0 < S64x256.numel
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x256_S2000x256_1_0_0_1_n_n_wf : DotDims.WF S2000x64 S64x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x256.size a ≤ S64x256.size a
  hwx4_2 : ∀ i : grid4.Coords, EltTy.bits .f32 = 32 ∨ (Rect.block (s := S64x256) S64x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x40.size a ≤ S256x40.size a
  hwx4_4 : ∀ i : grid4.Coords, EltTy.bits .f32 = 32 ∨ (Rect.block (s := S256x40) S256x40.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x40.size a ≤ S1x40.size a
  hwx4_5 : ∀ i : grid4.Coords, EltTy.bits .f32 = 32 ∨ (Rect.block (s := S1x40) S1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x40.size a ≤ S100000x40.size a
  hwx4_6 : ∀ i : grid4.Coords, EltTy.bits .f32 = 32 ∨ (Rect.block (s := S100000x40) S2000x40.size (cc4_transform_6 i) (hinb4_6 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S256x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S2000x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S1x1200000 : Shape := ⟨2, ![1, 1200000]⟩
abbrev S1200000 : Shape := ⟨1, ![1200000]⟩
abbrev S100000x256 : Shape := ⟨2, ![100000, 256]⟩
abbrev S1x256 : Shape := ⟨2, ![1, 256]⟩
abbrev S_ : Shape := ⟨0, ![]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1200000x1 : Shape := ⟨2, ![1200000, 1]⟩
abbrev S1200000x64 : Shape := ⟨2, ![1200000, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .hbm, ⟨27, _⟩ => ⟨S1x64x64, .f32⟩
  | .hbm, ⟨28, _⟩ => ⟨S64x64, .f32⟩
  | .hbm, ⟨29, _⟩ => ⟨S100000x64, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S1x64x64, .f32⟩
  | .hbm, ⟨52, _⟩ => ⟨S64x64, .f32⟩
  | .hbm, ⟨53, _⟩ => ⟨S100000x64, .f32⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S1x64x64, .f32⟩
  | .hbm, ⟨76, _⟩ => ⟨S64x64, .f32⟩
  | .hbm, ⟨77, _⟩ => ⟨S100000x64, .f32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1200000x64, .f32⟩
  | .hbm, ⟨87, _⟩ => ⟨S_, .f32⟩
  | .hbm, ⟨88, _⟩ => ⟨S100000x64, .f32⟩
  | .hbm, ⟨89, _⟩ => ⟨S1200000x1, .i32⟩
  | .hbm, ⟨90, _⟩ => ⟨S100000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .hbm, ⟨103, _⟩ => ⟨S_, .f32⟩
  | .hbm, ⟨104, _⟩ => ⟨S100000x256, .f32⟩
  | .hbm, ⟨105, _⟩ => ⟨S100000x256, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_v36 : Ref sig .tc := ⟨.hbm, 56, rfl⟩
abbrev main_c_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_c_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call5_cst : Ref sig .tc := ⟨.hbm, 110, rfl⟩
abbrev main_call5_v0 : Ref sig .tc := ⟨.hbm, 111, rfl⟩
abbrev main_call5_cst_0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_cst_1 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_v79 : Ref sig .tc := ⟨.hbm, 124, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x256_S100000x256_1_0_0_1_n_n_wf : DotDims.WF S100000x64 S64x256 S100000x256 [1] [0] [0] [1] [] []
  dot_S100000x256_S256x40_S100000x40_1_0_0_1_n_n_wf : DotDims.WF S100000x256 S256x40 S100000x40 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.Spec.lean ====
/-
  The stacked graph-convolution network as plain mathematics on the extended reals: every array is a function of its
  index, a dense layer is a matrix product entry by entry (a finite sum of products), a bias is added along the rows,
  the rectifier is the maximum with zero, and the closing log-softmax subtracts from each entry its row's maximum and
  the logarithm of the row's sum of exponentials.  Each of these acts on a matrix ROW BY ROW: the rows 2000·t … 2000·t+1999
  of the result are the same operation applied to those rows of the operand (the lemmas `*_rowsAt`), which is what lets a
  computation tiled over fifty blocks of 2000 rows be read as one computation on all 100000 rows.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- An `n × k` matrix of extended reals, as a function of its index. -/
abbrev Mat (n k : Nat) : Type := (⟨2, ![n, k]⟩ : Shape).Idx → EReal
/-- A vector of `k` extended reals. -/
abbrev Row (k : Nat) : Type := (⟨1, ![k]⟩ : Shape).Idx → EReal

/-- The matrix product: entry `(p, q)` is the sum over `l` of `a (p, l) · b (l, q)`. -/
def mm {n k j : Nat} (a : Mat n k) (b : Mat k j) : Mat n j :=
  fun i => ∑ l : Fin k, a (ix2 (i 0) l) * b (ix2 l (i 1))

/-- A bias vector added to every row. -/
def addRow {n j : Nat} (a : Mat n j) (b : Row j) : Mat n j := fun i => a i + b (ix1 (i 1))

/-- The same with the bias kept as a one-row matrix. -/
def addRowB {n j : Nat} (a : Mat n j) (b : Mat 1 j) : Mat n j := fun i => a i + b (ix2 0 (i 1))

/-- The rectifier: the maximum with zero (zero written as the float word it is printed as). -/
def relu {n j : Nat} (a : Mat n j) : Mat n j := fun i => max (a i) (Ideal.ofBits .f32 0x00000000#32)

/-- The maximum of row `p`, folded from minus infinity (written as its float word). -/
def rowMax {n j : Nat} (a : Mat n j) (p : Fin n) : EReal :=
  (Finset.univ : Finset (Fin j)).fold max (Ideal.ofBits .f32 0xFF800000#32) (fun q => a (ix2 p q))

/-- The log-softmax along the rows: `x − max − log ∑ exp (x − max)`. -/
def lsm {n j : Nat} (a : Mat n j) : Mat n j :=
  fun i => (a i - rowMax a (i 0)) - Ideal.log (∑ q : Fin j, Ideal.exp (a (ix2 (i 0) q) - rowMax a (i 0)))

/-- One of the three stacked `64 × 64` weight matrices. -/
def wsl (r : Fin 3) (w : (⟨3, ![3, 64, 64]⟩ : Shape).Idx → EReal) : Mat 64 64 := fun i => w (ix3 r (i 0) (i 1))

/-- One of the three stacked bias vectors. -/
def bsl (r : Fin 3) (b : Mat 3 64) : Row 64 := fun i => b (ix2 r (i 0))

/-- A bias vector laid out as a one-row matrix. -/
def asRow {j : Nat} (b : Row j) : Mat 1 j := fun i => b (ix1 (i 1))

theorem addRowB_asRow {n j : Nat} (a : Mat n j) (b : Row j) : addRowB a (asRow b) = addRow a b := rfl

/-! ## The layers -/

/-- The encoder: two dense layers with a rectifier between them. -/
def enc (x : Mat 100000 128) (w0 : Mat 128 256) (b0 : Row 256) (w1 : Mat 256 64) (b1 : Row 64) : Mat 100000 64 :=
  addRow (mm (relu (addRow (mm x w0) b0)) w1) b1

/-- The step between two aggregations: bias, rectifier, the next layer's weight. -/
def comb {n : Nat} (a : Mat n 64) (b : Row 64) (w : Mat 64 64) : Mat n 64 := mm (relu (addRow a b)) w

/-- The decoder: bias and rectifier of the last aggregation, two dense layers with a rectifier between them, log-softmax. -/
def dec {n : Nat} (a : Mat n 64) (b : Row 64) (w0 : Mat 64 256) (b0 : Row 256) (w1 : Mat 256 40) (b1 : Row 40) : Mat n 40 :=
  lsm (addRow (mm (relu (addRow (mm (relu (addRow a b)) w0) b0)) w1) b1)

/-! ## Rows 2000·t … 2000·t + 1999 -/

/-- The block of 2000 consecutive rows starting at row `2000 · t`. -/
def rowsAt {k : Nat} (t : Fin 50) (X : Mat 100000 k) : Mat 2000 k :=
  fun y => X (ix2 ⟨t.val * 2000 + (y 0).val, by have h0 := idx2_lt0 y; have ht := t.isLt; omega⟩ (y 1))

theorem mm_rowsAt {k j : Nat} (t : Fin 50) (A : Mat 100000 k) (B : Mat k j) : mm (rowsAt t A) B = rowsAt t (mm A B) := rfl
theorem addRow_rowsAt {j : Nat} (t : Fin 50) (A : Mat 100000 j) (b : Row j) : addRow (rowsAt t A) b = rowsAt t (addRow A b) := rfl
theorem addRowB_rowsAt {j : Nat} (t : Fin 50) (A : Mat 100000 j) (b : Mat 1 j) : addRowB (rowsAt t A) b = rowsAt t (addRowB A b) := rfl
theorem relu_rowsAt {j : Nat} (t : Fin 50) (A : Mat 100000 j) : relu (rowsAt t A) = rowsAt t (relu A) := rfl
theorem lsm_rowsAt {j : Nat} (t : Fin 50) (A : Mat 100000 j) : lsm (rowsAt t A) = rowsAt t (lsm A) := rfl

end Cert.Gcn

end
-- ==== Proof.KPay.lean ====
/-
  What a tiled computation stores for one block of 2000 rows, as a formula in the rows it loaded: the tile's stored
  value is the network's layer (Spec.lean) applied to those 2000 rows.  A change of float format is the identity on the
  extended reals, a shape cast to the same shape likewise, a matrix product into a zero accumulator is the plain sum of
  products, and a one-row bias broadcast down the rows adds `b (0, q)` to entry `(p, q)`.
-/
import proofs.«165432_j22093311771370_1_alg».proof.Proof.Gen.KernelIdeal.Skeleton
import proofs.«165432_j22093311771370_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Gcn Idealize.ShloMosaic Idealize.ShloMosaic.ValueIdx

namespace KPay

/-! ## The `2000 × 64` by `64 × 64` product: the operand indices at output `(p, q)` and contraction index `l` are `(p, l)` and `(l, q)` -/

theorem lhs_64x64_0 (i : S2000x64.Idx) (c : dot_S2000x64_S64x64_S2000x64_1_0_0_1_n_n.contr.Idx) :
    (dot_S2000x64_S64x64_S2000x64_1_0_0_1_n_n.lhsIdx i c 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_64x64_1 (i : S2000x64.Idx) (c : dot_S2000x64_S64x64_S2000x64_1_0_0_1_n_n.contr.Idx) :
    (dot_S2000x64_S64x64_S2000x64_1_0_0_1_n_n.lhsIdx i c 1).val = (c ⟨0, by decide⟩).val :=
  dot_S2000x64_S64x64_S2000x64_1_0_0_1_n_n.lhsIdx_val_of_single rfl i c
theorem rhs_64x64_0 (i : S2000x64.Idx) (c : dot_S2000x64_S64x64_S2000x64_1_0_0_1_n_n.contr.Idx) :
    (dot_S2000x64_S64x64_S2000x64_1_0_0_1_n_n.rhsIdx i c 0).val = (c ⟨0, by decide⟩).val :=
  dot_S2000x64_S64x64_S2000x64_1_0_0_1_n_n.rhsIdx_val_of_single rfl i c
theorem rhs_64x64_1 (i : S2000x64.Idx) (c : dot_S2000x64_S64x64_S2000x64_1_0_0_1_n_n.contr.Idx) :
    (dot_S2000x64_S64x64_S2000x64_1_0_0_1_n_n.rhsIdx i c 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The tile's matrix product into the zero accumulator is the matrix product of the specification. -/
theorem mm_64x64 (a : FVec Ideal S2000x64 .bf16) (b : FVec Ideal S64x64 .bf16) :
    matmul dot_S2000x64_S64x64_S2000x64_1_0_0_1_n_n none a b (constant (F := Ideal) S2000x64 .f32 0x00000000#32) = mm a b := by
  funext y
  obtain ⟨p, q, rfl⟩ : ∃ (p : Fin 2000) (q : Fin 64), y = ix2 p q := ⟨y 0, y 1, eq_ix2 y⟩
  refine (Ideal.matmul_constant_zero_apply dot_S2000x64_S64x64_S2000x64_1_0_0_1_n_n none a b (ix2 p q)).trans ?_
  rw [← Equiv.sum_comp (ValueIdx.contrEquiv1 dot_S2000x64_S64x64_S2000x64_1_0_0_1_n_n 64 rfl rfl).symm]
  show _ = ∑ l : Fin 64, a (ix2 p l) * b (ix2 l q)
  refine Finset.sum_congr rfl fun l _ => ?_
  have hl := ValueIdx.contrEquiv1_symm_val dot_S2000x64_S64x64_S2000x64_1_0_0_1_n_n 64 rfl rfl l
  have el : dot_S2000x64_S64x64_S2000x64_1_0_0_1_n_n.lhsIdx (ix2 p q) ((ValueIdx.contrEquiv1 dot_S2000x64_S64x64_S2000x64_1_0_0_1_n_n 64 rfl rfl).symm l) = ix2 p l := funext fun ax => Fin.ext (by
    match ax with
    | ⟨0, _⟩ => exact lhs_64x64_0 _ _
    | ⟨1, _⟩ => exact (lhs_64x64_1 _ _).trans hl)
  have er : dot_S2000x64_S64x64_S2000x64_1_0_0_1_n_n.rhsIdx (ix2 p q) ((ValueIdx.contrEquiv1 dot_S2000x64_S64x64_S2000x64_1_0_0_1_n_n 64 rfl rfl).symm l) = ix2 l q := funext fun ax => Fin.ext (by
    match ax with
    | ⟨0, _⟩ => exact (rhs_64x64_0 _ _).trans hl
    | ⟨1, _⟩ => exact rhs_64x64_1 _ _)
  rw [el, er]

/-! ## The `2000 × 128` by `128 × 256` product: the operand indices at output `(p, q)` and contraction index `l` are `(p, l)` and `(l, q)` -/

theorem lhs_128x256_0 (i : S2000x256.Idx) (c : dot_S2000x128_S128x256_S2000x256_1_0_0_1_n_n.contr.Idx) :
    (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_128x256_1 (i : S2000x256.Idx) (c : dot_S2000x128_S128x256_S2000x256_1_0_0_1_n_n.contr.Idx) :
    (dot_S2000x128_S128x256_S2000x256_1_0_0_1_n_n.lhsIdx i c 1).val = (c ⟨0, by decide⟩).val :=
  dot_S2000x128_S128x256_S2000x256_1_0_0_1_n_n.lhsIdx_val_of_single rfl i c
theorem rhs_128x256_0 (i : S2000x256.Idx) (c : dot_S2000x128_S128x256_S2000x256_1_0_0_1_n_n.contr.Idx) :
    (dot_S2000x128_S128x256_S2000x256_1_0_0_1_n_n.rhsIdx i c 0).val = (c ⟨0, by decide⟩).val :=
  dot_S2000x128_S128x256_S2000x256_1_0_0_1_n_n.rhsIdx_val_of_single rfl i c
theorem rhs_128x256_1 (i : S2000x256.Idx) (c : dot_S2000x128_S128x256_S2000x256_1_0_0_1_n_n.contr.Idx) :
    (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The tile's matrix product into the zero accumulator is the matrix product of the specification. -/
theorem mm_128x256 (a : FVec Ideal S2000x128 .bf16) (b : FVec Ideal S128x256 .bf16) :
    matmul dot_S2000x128_S128x256_S2000x256_1_0_0_1_n_n none a b (constant (F := Ideal) S2000x256 .f32 0x00000000#32) = mm a b := by
  funext y
  obtain ⟨p, q, rfl⟩ : ∃ (p : Fin 2000) (q : Fin 256), y = ix2 p q := ⟨y 0, y 1, eq_ix2 y⟩
  refine (Ideal.matmul_constant_zero_apply dot_S2000x128_S128x256_S2000x256_1_0_0_1_n_n none a b (ix2 p q)).trans ?_
  rw [← Equiv.sum_comp (ValueIdx.contrEquiv1 dot_S2000x128_S128x256_S2000x256_1_0_0_1_n_n 128 rfl rfl).symm]
  show _ = ∑ l : Fin 128, a (ix2 p l) * b (ix2 l q)
  refine Finset.sum_congr rfl fun l _ => ?_
  have hl := ValueIdx.contrEquiv1_symm_val dot_S2000x128_S128x256_S2000x256_1_0_0_1_n_n 128 rfl rfl l
  have el : dot_S2000x128_S128x256_S2000x256_1_0_0_1_n_n.lhsIdx (ix2 p q) ((ValueIdx.contrEquiv1 dot_S2000x128_S128x256_S2000x256_1_0_0_1_n_n 128 rfl rfl).symm l) = ix2 p l := funext fun ax => Fin.ext (by
    match ax with
    | ⟨0, _⟩ => exact lhs_128x256_0 _ _
    | ⟨1, _⟩ => exact (lhs_128x256_1 _ _).trans hl)
  have er : dot_S2000x128_S128x256_S2000x256_1_0_0_1_n_n.rhsIdx (ix2 p q) ((ValueIdx.contrEquiv1 dot_S2000x128_S128x256_S2000x256_1_0_0_1_n_n 128 rfl rfl).symm l) = ix2 l q := funext fun ax => Fin.ext (by
    match ax with
    | ⟨0, _⟩ => exact (rhs_128x256_0 _ _).trans hl
    | ⟨1, _⟩ => exact rhs_128x256_1 _ _)
  rw [el, er]

/-! ## The `2000 × 256` by `256 × 64` product: the operand indices at output `(p, q)` and contraction index `l` are `(p, l)` and `(l, q)` -/

theorem lhs_256x64_0 (i : S2000x64.Idx) (c : dot_S2000x256_S256x64_S2000x64_1_0_0_1_n_n.contr.Idx) :
    (dot_S2000x256_S256x64_S2000x64_1_0_0_1_n_n.lhsIdx i c 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_256x64_1 (i : S2000x64.Idx) (c : dot_S2000x256_S256x64_S2000x64_1_0_0_1_n_n.contr.Idx) :
    (dot_S2000x256_S256x64_S2000x64_1_0_0_1_n_n.lhsIdx i c 1).val = (c ⟨0, by decide⟩).val :=
  dot_S2000x256_S256x64_S2000x64_1_0_0_1_n_n.lhsIdx_val_of_single rfl i c
theorem rhs_256x64_0 (i : S2000x64.Idx) (c : dot_S2000x256_S256x64_S2000x64_1_0_0_1_n_n.contr.Idx) :
    (dot_S2000x256_S256x64_S2000x64_1_0_0_1_n_n.rhsIdx i c 0).val = (c ⟨0, by decide⟩).val :=
  dot_S2000x256_S256x64_S2000x64_1_0_0_1_n_n.rhsIdx_val_of_single rfl i c
theorem rhs_256x64_1 (i : S2000x64.Idx) (c : dot_S2000x256_S256x64_S2000x64_1_0_0_1_n_n.contr.Idx) :
    (dot_S2000x256_S256x64_S2000x64_1_0_0_1_n_n.rhsIdx i c 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The tile's matrix product into the zero accumulator is the matrix product of the specification. -/
theorem mm_256x64 (a : FVec Ideal S2000x256 .bf16) (b : FVec Ideal S256x64 .bf16) :
    matmul dot_S2000x256_S256x64_S2000x64_1_0_0_1_n_n none a b (constant (F := Ideal) S2000x64 .f32 0x00000000#32) = mm a b := by
  funext y
  obtain ⟨p, q, rfl⟩ : ∃ (p : Fin 2000) (q : Fin 64), y = ix2 p q := ⟨y 0, y 1, eq_ix2 y⟩
  refine (Ideal.matmul_constant_zero_apply dot_S2000x256_S256x64_S2000x64_1_0_0_1_n_n none a b (ix2 p q)).trans ?_
  rw [← Equiv.sum_comp (ValueIdx.contrEquiv1 dot_S2000x256_S256x64_S2000x64_1_0_0_1_n_n 256 rfl rfl).symm]
  show _ = ∑ l : Fin 256, a (ix2 p l) * b (ix2 l q)
  refine Finset.sum_congr rfl fun l _ => ?_
  have hl := ValueIdx.contrEquiv1_symm_val dot_S2000x256_S256x64_S2000x64_1_0_0_1_n_n 256 rfl rfl l
  have el : dot_S2000x256_S256x64_S2000x64_1_0_0_1_n_n.lhsIdx (ix2 p q) ((ValueIdx.contrEquiv1 dot_S2000x256_S256x64_S2000x64_1_0_0_1_n_n 256 rfl rfl).symm l) = ix2 p l := funext fun ax => Fin.ext (by
    match ax with
    | ⟨0, _⟩ => exact lhs_256x64_0 _ _
    | ⟨1, _⟩ => exact (lhs_256x64_1 _ _).trans hl)
  have er : dot_S2000x256_S256x64_S2000x64_1_0_0_1_n_n.rhsIdx (ix2 p q) ((ValueIdx.contrEquiv1 dot_S2000x256_S256x64_S2000x64_1_0_0_1_n_n 256 rfl rfl).symm l) = ix2 l q := funext fun ax => Fin.ext (by
    match ax with
    | ⟨0, _⟩ => exact (rhs_256x64_0 _ _).trans hl
    | ⟨1, _⟩ => exact rhs_256x64_1 _ _)
  rw [el, er]

/-! ## The pointwise steps -/

/-- A change of float format is the identity on the extended reals. -/
theorem truncf_id {s : Shape} {φ ψ : FTy} (a : FVec Ideal s φ) (h : ψ.bits < φ.bits) :
    (truncf ψ a h : FVec Ideal s ψ) = a := rfl

/-- A one-row bias broadcast down the rows and added: entry `(p, q)` gains `b (0, q)`. -/
theorem bias_eq {n j : Nat} (a : FVec Ideal ⟨2, ![n, j]⟩ .f32) (b : FVec Ideal ⟨2, ![1, j]⟩ .f32)
    (h : (⟨2, ![1, j]⟩ : Shape).Broadcasts ⟨2, ![n, j]⟩) :
    addf a (broadcastTo ⟨2, ![n, j]⟩ b h) = addRowB a b := by
  funext y
  obtain ⟨p, q, rfl⟩ : ∃ (p : Fin n) (q : Fin j), y = ix2 p q := ⟨y 0, y 1, eq_ix2 y⟩
  show a (ix2 p q) + broadcastTo ⟨2, ![n, j]⟩ b h (ix2 p q) = a (ix2 p q) + b (ix2 0 q)
  rw [broadcastTo_1b_ab_apply]

/-- The maximum with the zero splat is the rectifier. -/
theorem relu_eq {n j : Nat} (a : FVec Ideal ⟨2, ![n, j]⟩ .f32) :
    maximumf a (broadcast ⟨2, ![n, j]⟩ (Scalar.ofBits (F := Ideal) .f32 0x00000000#32)) = relu a := rfl

end KPay

open KPay

/-! ## The tiles -/

/-- The encoder's tile: two dense layers with a rectifier between them, on the tile's rows. -/
theorem pay0 (v0 : Vec Ideal S2000x128 .f32) (v2 : Vec Ideal S128x256 .f32) (v5 : Vec Ideal S1x256 .f32)
    (v12 : Vec Ideal S256x64 .f32) (v15 : Vec Ideal S1x64 .f32) :
    k0_pay1 (F := Ideal) v0 v2 v5 v12 v15 = addRowB (mm (relu (addRowB (mm v0 v2) v5)) v12) v15 := by
  unfold k0_pay1
  simp only [shapeCast_self, truncf_id]
  refine (bias_eq _ v15 _).trans ?_
  refine congrArg (fun a => addRowB a v15) ?_
  refine (mm_256x64 _ _).trans ?_
  refine congrArg (fun a => mm a v12) ?_
  refine (relu_eq _).trans ?_
  refine congrArg relu ?_
  refine (bias_eq _ v5 _).trans ?_
  exact congrArg (fun a => addRowB a v5) (mm_128x256 _ _)

/-- The first layer's tile: the rows times the weight. -/
theorem pay1 (v0 : Vec Ideal S2000x64 .f32) (v3 : Vec Ideal S64x64 .f32) :
    k1_pay1 (F := Ideal) v0 v3 = mm v0 v3 := by
  unfold k1_pay1
  simp only [shapeCast_self, truncf_id]
  exact mm_64x64 _ _

/-- A middle layer's tile: bias, rectifier, weight. -/
theorem pay2 (v0 : Vec Ideal S2000x64 .f32) (v2 : Vec Ideal S1x64 .f32) (v9 : Vec Ideal S64x64 .f32) :
    k2_pay1 (F := Ideal) v0 v2 v9 = mm (relu (addRowB v0 v2)) v9 := by
  unfold k2_pay1
  simp only [shapeCast_self, truncf_id]
  refine (mm_64x64 _ _).trans ?_
  refine congrArg (fun a => mm a v9) ?_
  refine (relu_eq _).trans ?_
  exact congrArg relu (bias_eq v0 v2 _)

/-- The other middle layer's tile: the same formula. -/
theorem pay3 (v0 : Vec Ideal S2000x64 .f32) (v2 : Vec Ideal S1x64 .f32) (v9 : Vec Ideal S64x64 .f32) :
    k3_pay1 (F := Ideal) v0 v2 v9 = mm (relu (addRowB v0 v2)) v9 := by
  unfold k3_pay1
  simp only [shapeCast_self, truncf_id]
  refine (mm_64x64 _ _).trans ?_
  refine congrArg (fun a => mm a v9) ?_
  refine (relu_eq _).trans ?_
  exact congrArg relu (bias_eq v0 v2 _)

end Cert.KernelIdeal.Tile

end
-- ==== Proof.KFinalA.lean ====
/-
  From tiles to whole arrays.  A tiled computation runs over fifty blocks of 2000 rows; block `t` of its result is the
  layer applied to rows `2000·t … 2000·t + 1999` of the row-tiled operand and to the small operands whole.  Since every
  layer acts row by row (Spec.lean, `*_rowsAt`), block `t` of the result is block `t` of the layer applied to the WHOLE
  operand, and the fifty blocks tile the array: after the computation the result array is the layer of the arrays it
  was given.
-/
import proofs.«165432_j22093311771370_1_alg».proof.Proof.PFrameKernelIdeal
import proofs.«165432_j22093311771370_1_alg».proof.Proof.Spec
import proofs.«165432_j22093311771370_1_alg».proof.Proof.KPay
import Idealize.ShloMosaic.Lib.Pipeline.Value

set_option maxRecDepth 16384

noncomputable section

namespace Cert.KernelIdeal.Whole

open Cert.KernelIdeal Cert.KernelIdeal.Gen Cert.Gcn Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace A

/-- The zero offsets of a whole-block access, however spelt. -/
theorem hz : (![0, 0] : Fin 2 → Nat) = fun _ => 0 := funext fun a => by fin_cases a <;> rfl

/-! ## The first layer: fifty blocks of 2000 rows times one weight -/

/-- The block index maps over the grid: the row-tiled operand and the result move with the point, the weight stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A grid point as a block number below fifty. -/
abbrev pt1 (t : Fin cfg1.N) : Fin 50 := Fin.cast N_1 t

/-- The row-tiled operand's block at point `t` is rows `2000·t …` of the array. -/
theorem rows1_0 (c : Dev nD) (t : Fin cfg1.N) :
    (iblk1 V c 0 t : Vec Ideal S2000x64 .f32) = rowsAt (pt1 t) (V c main_v6) := by
  obtain ⟨e0, e1, -, -, -, -⟩ := idx1 t
  funext y
  unfold iblk1
  rw [View.read_apply]
  show V c main_v6 _ = V c main_v6 _
  congr 1
  funext a
  apply Fin.ext
  match a with
  | ⟨0, _⟩ => show win1_0.index t (0 : Fin 2) * 2000 + 1 * (y 0).val = t.val * 2000 + (y 0).val; omega
  | ⟨1, _⟩ => show win1_0.index t (1 : Fin 2) * 64 + 1 * (y 1).val = (y 1).val; omega

/-- The weight's block at every point is the whole weight. -/
theorem whole1_1 (c : Dev nD) (t : Fin cfg1.N) :
    (iblk1 V c 1 t : Vec Ideal S64x64 .f32) = V c main_v8 := by
  obtain ⟨-, -, e2, e3, -, -⟩ := idx1 t
  funext y
  unfold iblk1
  rw [View.read_apply]
  show V c main_v8 _ = V c main_v8 _
  congr 1
  funext a
  apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The result's block at point `t`, read off any array, is rows `2000·t …` of it. -/
theorem rows1_2 (t : Fin cfg1.N) (G : Mat 100000 64) :
    ((cfg1.win 2).blk t).view.read (Elt Ideal) G = (rowsAt (pt1 t) G : Vec Ideal S2000x64 .f32) := by
  obtain ⟨-, -, -, -, e4, e5⟩ := idx1 t
  funext y
  rw [View.read_apply]
  show G _ = G _
  congr 1
  funext a
  apply Fin.ext
  match a with
  | ⟨0, _⟩ => show win1_2.index t (0 : Fin 2) * 2000 + 1 * (y 0).val = t.val * 2000 + (y 0).val; omega
  | ⟨1, _⟩ => show win1_2.index t (1 : Fin 2) * 64 + 1 * (y 1).val = (y 1).val; omega

/-- What point `t` writes back is block `t` of the product of the whole arrays. -/
theorem flushed1 (c : Dev nD) (t : Fin cfg1.N) :
    (dat1 (F := Ideal) V c).flushed 2 t
      = ((cfg1.win 2).blk t).view.read (Elt Ideal) (mm (V c main_v6) (V c main_v8)) := by
  show (cfg1.win 2).cut (grid1.coords t) ((dat1 (F := Ideal) V c).after 2 t) = _
  rw [after1_2]
  unfold out1_2
  rw [View.canon_unit_zero hz]
  simp only [View.ld_unit_zero (S := S2000x64) hz, View.ld_unit_zero (S := S64x64) hz]
  rw [Tile.pay1, rows1_0, whole1_1, mm_rowsAt, rows1_2]
  rfl

/-- An index of the result array is in point `t`'s block iff each coordinate is in the block's range on its axis. -/
theorem mem1_2 (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v9).slice (win1_2.rect t)).set ↔ _
  rw [View.set_slice_whole, Rect.mem_set_unit]
  exact Iff.rfl

/-- Row `r` is in the block of point `r / 2000`: the fifty blocks cover the array. -/
theorem cover1 (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := idx1 t
  refine ⟨t, flush1_2 t, ?_⟩
  rw [mem1_2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-! ## The encoder: fifty blocks of 2000 rows through two dense layers -/

/-- The block index maps over the grid: the row-tiled operand and the result move with the point, the weights and
    biases stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point as a block number below fifty. -/
abbrev pt0 (t : Fin cfg0.N) : Fin 50 := Fin.cast N_0 t

/-- The row-tiled operand's block at point `t` is rows `2000·t …` of the array. -/
theorem rows0_0 (c : Dev nD) (t : Fin cfg0.N) :
    (iblk0 V c 0 t : Vec Ideal S2000x128 .f32) = rowsAt (pt0 t) (V c main_arg0) := by
  obtain ⟨ea, eb, -, -, -, -, -, -, -, -, -, -⟩ := idx0 t
  funext y
  unfold iblk0
  rw [View.read_apply]
  show V c main_arg0 _ = V c main_arg0 _
  congr 1
  funext a
  apply Fin.ext
  match a with
  | ⟨0, _⟩ => show win0_0.index t (0 : Fin 2) * 2000 + 1 * (y 0).val = t.val * 2000 + (y 0).val; omega
  | ⟨1, _⟩ => show win0_0.index t (1 : Fin 2) * 128 + 1 * (y 1).val = (y 1).val; omega

/-- The first weight's block at every point is the whole array. -/
theorem whole0_1 (c : Dev nD) (t : Fin cfg0.N) :
    (iblk0 V c 1 t : Vec Ideal S128x256 .f32) = V c main_arg2 := by
  obtain ⟨-, -, ea, eb, -, -, -, -, -, -, -, -⟩ := idx0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The first bias's block at every point is the whole array. -/
theorem whole0_2 (c : Dev nD) (t : Fin cfg0.N) :
    (iblk0 V c 2 t : Vec Ideal S1x256 .f32) = V c main_v4 := by
  obtain ⟨-, -, -, -, ea, eb, -, -, -, -, -, -⟩ := idx0 t
  funext y
  unfold iblk0
  rw [View.read_apply]
  show V c main_v4 _ = V c main_v4 _
  congr 1
  funext a
  apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight's block at every point is the whole array. -/
theorem whole0_3 (c : Dev nD) (t : Fin cfg0.N) :
    (iblk0 V c 3 t : Vec Ideal S256x64 .f32) = V c main_arg4 := by
  obtain ⟨-, -, -, -, -, -, ea, eb, -, -, -, -⟩ := idx0 t
  funext y
  unfold iblk0
  rw [View.read_apply]
  show V c main_arg4 _ = V c main_arg4 _
  congr 1
  funext a
  apply Fin.ext
  match a with
  | ⟨0, _⟩ => show win0_3.index t (0 : Fin 2) * 256 + 1 * (y 0).val = (y 0).val; omega
  | ⟨1, _⟩ => show win0_3.index t (1 : Fin 2) * 64 + 1 * (y 1).val = (y 1).val; omega

/-- The second bias's block at every point is the whole array. -/
theorem whole0_4 (c : Dev nD) (t : Fin cfg0.N) :
    (iblk0 V c 4 t : Vec Ideal S1x64 .f32) = V c main_v5 := by
  obtain ⟨-, -, -, -, -, -, -, -, ea, eb, -, -⟩ := idx0 t
  funext y
  unfold iblk0
  rw [View.read_apply]
  show V c main_v5 _ = V c main_v5 _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The result's block at point `t`, read off any array, is rows `2000·t …` of it. -/
theorem rows0_5 (t : Fin cfg0.N) (G : Mat 100000 64) :
    ((cfg0.win 5).blk t).view.read (Elt Ideal) G = (rowsAt (pt0 t) G : Vec Ideal S2000x64 .f32) := by
  obtain ⟨-, -, -, -, -, -, -, -, -, -, ea, eb⟩ := idx0 t
  funext y
  rw [View.read_apply]
  show G _ = G _
  congr 1
  funext a
  apply Fin.ext
  match a with
  | ⟨0, _⟩ => show win0_5.index t (0 : Fin 2) * 2000 + 1 * (y 0).val = t.val * 2000 + (y 0).val; omega
  | ⟨1, _⟩ => show win0_5.index t (1 : Fin 2) * 64 + 1 * (y 1).val = (y 1).val; omega

/-- What point `t` writes back is block `t` of the encoder applied to the whole arrays. -/
theorem flushed0 (c : Dev nD) (t : Fin cfg0.N) :
    (dat0 (F := Ideal) V c).flushed 5 t
      = ((cfg0.win 5).blk t).view.read (Elt Ideal)
          (addRowB (mm (relu (addRowB (mm (V c main_arg0) (V c main_arg2)) (V c main_v4))) (V c main_arg4)) (V c main_v5)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x256) hz, View.ld_unit_zero (S := S1x256) hz,
    View.ld_unit_zero (S := S256x64) hz, View.ld_unit_zero (S := S1x64) hz]
  rw [Tile.pay0, rows0_0, whole0_1, whole0_2, whole0_3, whole0_4, mm_rowsAt, addRowB_rowsAt, relu_rowsAt, mm_rowsAt,
    addRowB_rowsAt, rows0_5]
  rfl

/-- An index of the result array is in point `t`'s block iff each coordinate is in the block's range on its axis. -/
theorem mem0_5 (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v6).slice (win0_5.rect t)).set ↔ _
  rw [View.set_slice_whole, Rect.mem_set_unit]
  exact Iff.rfl

/-- Row `r` is in the block of point `r / 2000`: the fifty blocks cover the array. -/
theorem cover0 (i : S100000x64.Idx) :
    ∃ t : Fin cfg0.N, (cfg0.win 5).flush t = true ∧ i ∈ ((cfg0.win 5).blk t).view.set := by
  have h0 : (i 0).val < 100000 := (i 0).isLt
  have h1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, ea, eb⟩ := idx0 t
  refine ⟨t, flush0_5 t, ?_⟩
  rw [mem0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

end A

/-! ## The two result arrays -/

/-- The encoder's result array. -/
theorem final0 (c : Dev nD) :
    (dat0 (F := Ideal) V c).arrAt 5 cfg0.N
      = addRowB (mm (relu (addRowB (mm (V c main_arg0) (V c main_arg2)) (V c main_v4))) (V c main_arg4)) (V c main_v5) :=
  (dat0 (F := Ideal) V c).arrAt_eq_of_cover 5 _ (fun t _ => A.flushed0 V c t) A.cover0

/-- The first layer's result array. -/
theorem final1 (c : Dev nD) :
    (dat1 (F := Ideal) V c).arrAt 2 cfg1.N = mm (V c main_v6) (V c main_v8) :=
  (dat1 (F := Ideal) V c).arrAt_eq_of_cover 2 _ (fun t _ => A.flushed1 V c t) A.cover1

end Cert.KernelIdeal.Whole

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KPay4.lean ====
/-
  What a tiled computation stores for one block of 2000 rows, as a formula in the rows it loaded: the tile's stored
  value is the network's layer (Spec.lean) applied to those 2000 rows.  A change of float format is the identity on the
  extended reals, a shape cast to the same shape likewise, a matrix product into a zero accumulator is the plain sum of
  products, and a one-row bias broadcast down the rows adds `b (0, q)` to entry `(p, q)`.
-/
import proofs.«165432_j22093311771370_1_alg».proof.Proof.Gen.KernelIdeal.Skeleton
import proofs.«165432_j22093311771370_1_alg».proof.Proof.Spec
import proofs.«165432_j22093311771370_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Gcn Idealize.ShloMosaic Idealize.ShloMosaic.ValueIdx

namespace K4

/-! ### The product of a `2000 × 64` by a `64 × 256` matrix -/

theorem lhsA_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhsA_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhsA_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhsA_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- A matrix product into the zero accumulator is the sum of products over the contracted index. -/
theorem mm_2000x64_64x256 (a : FVec Ideal S2000x64 .bf16) (b : FVec Ideal S64x256 .bf16) :
    matmul dot_S2000x64_S64x256_S2000x256_1_0_0_1_n_n none a b (constant (F := Ideal) S2000x256 .f32 0x00000000#32) = mm a b := by
  funext i
  refine (Ideal.matmul_constant_zero_apply dot_S2000x64_S64x256_S2000x256_1_0_0_1_n_n none a b i).trans ?_
  rw [← Equiv.sum_comp (ValueIdx.contrEquiv1 dot_S2000x64_S64x256_S2000x256_1_0_0_1_n_n 64 rfl rfl).symm]
  show _ = ∑ l : Fin 64, a (ix2 (i 0) l) * b (ix2 l (i 1))
  refine Finset.sum_congr rfl fun k _ => ?_
  have hk := ValueIdx.contrEquiv1_symm_val dot_S2000x64_S64x256_S2000x256_1_0_0_1_n_n 64 rfl rfl k
  have el : dot_S2000x64_S64x256_S2000x256_1_0_0_1_n_n.lhsIdx i ((ValueIdx.contrEquiv1 dot_S2000x64_S64x256_S2000x256_1_0_0_1_n_n 64 rfl rfl).symm k) = ix2 (i 0) k := funext fun a => Fin.ext (by
    match a with
    | ⟨0, _⟩ => exact lhsA_0 _ _
    | ⟨1, _⟩ => exact (lhsA_1 _ _).trans hk)
  have er : dot_S2000x64_S64x256_S2000x256_1_0_0_1_n_n.rhsIdx i ((ValueIdx.contrEquiv1 dot_S2000x64_S64x256_S2000x256_1_0_0_1_n_n 64 rfl rfl).symm k) = ix2 k (i 1) := funext fun a => Fin.ext (by
    match a with
    | ⟨0, _⟩ => exact (rhsA_0 _ _).trans hk
    | ⟨1, _⟩ => exact rhsA_1 _ _)
  exact congrArg₂ (· * ·) (congrArg a el) (congrArg b er)

/-! ### The product of a `2000 × 256` by a `256 × 40` matrix -/

theorem lhsB_0 (i : S2000x40.Idx) (q : dot_S2000x256_S256x40_S2000x40_1_0_0_1_n_n.contr.Idx) :
    (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem lhsB_1 (i : S2000x40.Idx) (q : dot_S2000x256_S256x40_S2000x40_1_0_0_1_n_n.contr.Idx) :
    (dot_S2000x256_S256x40_S2000x40_1_0_0_1_n_n.lhsIdx i q 1).val = (q ⟨0, by decide⟩).val :=
  dot_S2000x256_S256x40_S2000x40_1_0_0_1_n_n.lhsIdx_val_of_single rfl i q
theorem rhsB_0 (i : S2000x40.Idx) (q : dot_S2000x256_S256x40_S2000x40_1_0_0_1_n_n.contr.Idx) :
    (dot_S2000x256_S256x40_S2000x40_1_0_0_1_n_n.rhsIdx i q 0).val = (q ⟨0, by decide⟩).val :=
  dot_S2000x256_S256x40_S2000x40_1_0_0_1_n_n.rhsIdx_val_of_single rfl i q
theorem rhsB_1 (i : S2000x40.Idx) (q : dot_S2000x256_S256x40_S2000x40_1_0_0_1_n_n.contr.Idx) :
    (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- A matrix product into the zero accumulator is the sum of products over the contracted index. -/
theorem mm_2000x256_256x40 (a : FVec Ideal S2000x256 .bf16) (b : FVec Ideal S256x40 .bf16) :
    matmul dot_S2000x256_S256x40_S2000x40_1_0_0_1_n_n none a b (constant (F := Ideal) S2000x40 .f32 0x00000000#32) = mm a b := by
  funext i
  refine (Ideal.matmul_constant_zero_apply dot_S2000x256_S256x40_S2000x40_1_0_0_1_n_n none a b i).trans ?_
  rw [← Equiv.sum_comp (ValueIdx.contrEquiv1 dot_S2000x256_S256x40_S2000x40_1_0_0_1_n_n 256 rfl rfl).symm]
  show _ = ∑ l : Fin 256, a (ix2 (i 0) l) * b (ix2 l (i 1))
  refine Finset.sum_congr rfl fun k _ => ?_
  have hk := ValueIdx.contrEquiv1_symm_val dot_S2000x256_S256x40_S2000x40_1_0_0_1_n_n 256 rfl rfl k
  have el : dot_S2000x256_S256x40_S2000x40_1_0_0_1_n_n.lhsIdx i ((ValueIdx.contrEquiv1 dot_S2000x256_S256x40_S2000x40_1_0_0_1_n_n 256 rfl rfl).symm k) = ix2 (i 0) k := funext fun a => Fin.ext (by
    match a with
    | ⟨0, _⟩ => exact lhsB_0 _ _
    | ⟨1, _⟩ => exact (lhsB_1 _ _).trans hk)
  have er : dot_S2000x256_S256x40_S2000x40_1_0_0_1_n_n.rhsIdx i ((ValueIdx.contrEquiv1 dot_S2000x256_S256x40_S2000x40_1_0_0_1_n_n 256 rfl rfl).symm k) = ix2 k (i 1) := funext fun a => Fin.ext (by
    match a with
    | ⟨0, _⟩ => exact (rhsB_0 _ _).trans hk
    | ⟨1, _⟩ => exact rhsB_1 _ _)
  exact congrArg₂ (· * ·) (congrArg a el) (congrArg b er)

/-! ### Bias, rectifier, and the dense layers of this tile -/

/-- A one-row bias broadcast down the rows, then added: the bias added along the rows. -/
theorem addf_bias {n k : ℕ} (a : FVec Ideal ⟨2, ![n, k]⟩ .f32) (b : FVec Ideal ⟨2, ![1, k]⟩ .f32)
    (hb : (⟨2, ![1, k]⟩ : Shape).Broadcasts ⟨2, ![n, k]⟩) :
    addf a (broadcastTo ⟨2, ![n, k]⟩ b hb) = addRowB a b := by
  funext j
  obtain ⟨p, q, rfl⟩ : ∃ (p : Fin n) (q : Fin k), j = ix2 p q := ⟨j 0, j 1, eq_ix2 j⟩
  exact congrArg (a (ix2 p q) + ·) (broadcastTo_1b_ab_apply b hb p q)

/-- The maximum with the zero splat is the rectifier. -/
theorem maximumf_zero {n k : ℕ} (a : FVec Ideal ⟨2, ![n, k]⟩ .f32) :
    maximumf a (broadcast ⟨2, ![n, k]⟩ (Scalar.ofBits (F := Ideal) .f32 0x00000000#32)) = relu a := rfl

/-- The first dense layer: the operands' change of format is the identity. -/
theorem mmA_trunc (a : FVec Ideal S2000x64 .f32) (b : FVec Ideal S64x256 .f32) :
    matmul dot_S2000x64_S64x256_S2000x256_1_0_0_1_n_n none (truncf .bf16 a bitsLt_bf16_f32) (truncf .bf16 b bitsLt_bf16_f32)
      (constant (F := Ideal) S2000x256 .f32 0x00000000#32) = mm a b :=
  mm_2000x64_64x256 _ _

/-- The second dense layer, likewise. -/
theorem mmB_trunc (a : FVec Ideal S2000x256 .f32) (b : FVec Ideal S256x40 .f32) :
    matmul dot_S2000x256_S256x40_S2000x40_1_0_0_1_n_n none (truncf .bf16 a bitsLt_bf16_f32) (truncf .bf16 b bitsLt_bf16_f32)
      (constant (F := Ideal) S2000x40 .f32 0x00000000#32) = mm a b :=
  mm_2000x256_256x40 _ _

/-! ### The log-softmax along the rows -/

/-- The index of the matrix over row `p` with column `k` inserted is `(p, k)`. -/
theorem lift_row (h : S2000x40.Reduces [1] S2000) (p : Fin 2000) (k : Fin 40) : h.lift (ix1 p) k = ix2 p k := by
  funext a
  match a with
  | ⟨0, _⟩ => exact Fin.ext rfl
  | ⟨1, _⟩ => exact Fin.ext rfl

/-- The maximum over the columns, kept as a column and laid across the row, is the row's maximum at every entry. -/
theorem maxCol (x : FVec Ideal S2000x40 .f32) (h : S2000x40.Reduces [1] S2000) (hφ : FKind.Formats .f32)
    (hacc : (0xFF800000#32 : BitVec 32) = FKind.maximumf.neutral .f32 hφ)
    (hs : S2000.ShapeCasts S2000x1) (hb : S2000x1.Broadcasts S2000x40) :
    broadcastTo S2000x40 (shapeCast S2000x1 (multiReduction (F := Ideal) .maximumf [1] S2000 x 0xFF800000#32 h hφ hacc) hs) hb
      = fun i => rowMax x (i 0) := by
  funext j
  obtain ⟨p, q, rfl⟩ : ∃ (p : Fin 2000) (q : Fin 40), j = ix2 p q := ⟨j 0, j 1, eq_ix2 j⟩
  refine (Cert.LibColumn.broadcastTo_column_apply _ hs hb p q).trans ?_
  refine (Ideal.multiReduction_maximumf_single x 0xFF800000#32 h hφ hacc (ix1 p)).trans ?_
  show (Finset.univ : Finset (Fin 40)).fold max (Ideal.ofBits .f32 0xFF800000#32) (x ∘ h.lift (ix1 p)) = rowMax x p
  unfold rowMax
  exact congrArg (fun f => (Finset.univ : Finset (Fin 40)).fold max (Ideal.ofBits .f32 0xFF800000#32) f)
    (funext fun k => congrArg x (lift_row h p k))

/-- The sum over the columns, kept as a column, its logarithm laid across the row: the logarithm of the row's sum. -/
theorem logSumCol (y : FVec Ideal S2000x40 .f32) (h : S2000x40.Reduces [1] S2000) (hφ : FKind.Formats .f32)
    (hacc : (0x00000000#32 : BitVec 32) = FKind.add.neutral .f32 hφ)
    (hs : S2000.ShapeCasts S2000x1) (hb : S2000x1.Broadcasts S2000x40) :
    broadcastTo S2000x40 (log (shapeCast S2000x1 (multiReduction (F := Ideal) .add [1] S2000 y 0x00000000#32 h hφ hacc) hs)) hb
      = fun i => Ideal.log (∑ q : Fin 40, y (ix2 (i 0) q)) := by
  funext j
  obtain ⟨p, q, rfl⟩ : ∃ (p : Fin 2000) (q : Fin 40), j = ix2 p q := ⟨j 0, j 1, eq_ix2 j⟩
  refine (Cert.LibColumn.broadcastTo_a1_ab_apply _ hb p q).trans ?_
  show Ideal.log (shapeCast S2000x1 _ hs (ix2 p (0 : Fin 1))) = Ideal.log (∑ q : Fin 40, y (ix2 p q))
  refine congrArg Ideal.log ?_
  refine (Cert.LibColumn.shapeCast_a_a1_apply _ hs p 0).trans ?_
  refine (Ideal.multiReduction_add_single y 0x00000000#32 h hφ hacc (ix1 p)).trans ?_
  show ∑ k : Fin 40, y (h.lift (ix1 p) k) = ∑ q : Fin 40, y (ix2 p q)
  exact Finset.sum_congr rfl fun k _ => congrArg y (lift_row h p k)

/-- Entry by entry: `x − max − log ∑ exp (x − max)`, once the two columns are read as functions of the row. -/
theorem lsm_of_cols (x m l : FVec Ideal S2000x40 .f32) (hm : m = fun i => rowMax x (i 0))
    (hl : l = fun i => Ideal.log (∑ q : Fin 40, (exp (subf x m)) (ix2 (i 0) q))) :
    subf (subf x m) l = lsm x := by
  subst hm; subst hl; rfl

/-- The closing operations of the tile, as a function of the logits, are the log-softmax along the rows. -/
theorem lsm_tail (x : FVec Ideal S2000x40 .f32) :
    (have v26 : FVec Ideal S2000 .f32 := multiReduction .maximumf [1] S2000 x 0xFF800000#32 reduces_S2000x40_S2000 (.inl rfl) rfl
     have v27 : FVec Ideal S2000x1 .f32 := shapeCast S2000x1 v26 shapeCasts_S2000_S2000x1
     have v28 : FVec Ideal S2000x40 .f32 := broadcastTo S2000x40 v27 broadcasts_S2000x1_S2000x40
     have v29 : FVec Ideal S2000x40 .f32 := subf x v28
     have v30 : FVec Ideal S2000x40 .f32 := exp v29
     have v31 : FVec Ideal S2000 .f32 := multiReduction .add [1] S2000 v30 0x00000000#32 reduces_S2000x40_S2000 (.inl rfl) rfl
     have v32 : FVec Ideal S2000x1 .f32 := shapeCast S2000x1 v31 shapeCasts_S2000_S2000x1
     have v33 : FVec Ideal S2000x1 .f32 := log v32
     have v34 : FVec Ideal S2000x40 .f32 := broadcastTo S2000x40 v33 broadcasts_S2000x1_S2000x40
     have v35 : FVec Ideal S2000x40 .f32 := subf v29 v34
     v35) = lsm x :=
  lsm_of_cols x _ _ (maxCol x _ _ _ _ _) (logSumCol _ _ _ _ _ _)

end K4

open K4

/-! ### The tile -/

/-- The decoder's tile: bias and rectifier, two dense layers with a rectifier between them, log-softmax along the rows. -/
theorem pay4 (v0 : Vec Ideal S2000x64 .f32) (v2 : Vec Ideal S1x64 .f32) (v9 : Vec Ideal S64x256 .f32)
    (v12 : Vec Ideal S1x256 .f32) (v19 : Vec Ideal S256x40 .f32) (v22 : Vec Ideal S1x40 .f32) :
    k4_pay1 (F := Ideal) v0 v2 v9 v12 v19 v22
      = lsm (addRowB (mm (relu (addRowB (mm (relu (addRowB v0 v2)) v9) v12)) v19) v22) := by
  unfold k4_pay1
  simp only [shapeCast_self, addf_bias, maximumf_zero, mmA_trunc, mmB_trunc]
  exact lsm_tail _

end Cert.KernelIdeal.Tile

end
-- ==== Proof.KFinalB.lean ====
/-
  From tiles to whole arrays.  A tiled computation runs over fifty blocks of 2000 rows; block `t` of its result is the
  layer applied to rows `2000·t … 2000·t + 1999` of the row-tiled operand and to the small operands whole.  Since every
  layer acts row by row (Spec.lean, `*_rowsAt`), block `t` of the result is block `t` of the layer applied to the WHOLE
  operand, and the fifty blocks tile the array: after the computation the result array is the layer of the arrays it
  was given.
-/
import proofs.«165432_j22093311771370_1_alg».proof.Proof.PFrameKernelIdeal
import proofs.«165432_j22093311771370_1_alg».proof.Proof.Spec
import proofs.«165432_j22093311771370_1_alg».proof.Proof.KPay
import proofs.«165432_j22093311771370_1_alg».proof.Proof.KPay4
import Idealize.ShloMosaic.Lib.Pipeline.Value

set_option maxRecDepth 16384

noncomputable section

namespace Cert.KernelIdeal.Whole

open Cert.KernelIdeal Cert.KernelIdeal.Gen Cert.Gcn Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace B

/-- The origin of a two-axis block. -/
theorem zeroOrigin : (![0, 0] : Fin 2 → Nat) = fun _ => 0 := funext fun a => by fin_cases a <;> rfl

/-! ## The second layer: bias, rectifier, weight -/

/-- Where each operand's block sits at grid point `t`: the row-tiled arrays are at block `t` along the rows, every
    small operand is at block zero, and no block moves along the columns (decided over the fifty points). -/
theorem origin2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row-tiled operand's block at point `t` is rows `2000·t … 2000·t + 1999` of the array. -/
theorem in2_0 (c : Dev nD) (t : Fin cfg2.N) : iblk2 V c 0 t = rowsAt (Fin.cast N_2 t) (V c main_v19) := by
  obtain ⟨e0, e1, -⟩ := origin2 t
  funext y
  show V c main_v19 (((cfg2.win 0).blk t).view.emb y) = V c main_v19 _
  congr 1
  funext a; apply Fin.ext
  match a with
  | ⟨0, _⟩ => show win2_0.index t (0 : Fin 2) * 2000 + 1 * (y 0).val = t.val * 2000 + (y 0).val; rw [e0]; omega
  | ⟨1, _⟩ => show win2_0.index t (1 : Fin 2) * 64 + 1 * (y 1).val = (y 1).val; rw [e1]; omega

/-- A small operand's block at any point is the whole array. -/
theorem in2_1 (c : Dev nD) (t : Fin cfg2.N) : iblk2 V c 1 t = V c main_v24 := by
  obtain ⟨-, -, e0, e1, -⟩ := origin2 t
  funext y
  show V c main_v24 (((cfg2.win 1).blk t).view.emb y) = V c main_v24 y
  congr 1
  funext a; apply Fin.ext
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- A small operand's block at any point is the whole array. -/
theorem in2_2 (c : Dev nD) (t : Fin cfg2.N) : iblk2 V c 2 t = V c main_v23 := by
  obtain ⟨-, -, -, -, e0, e1, -⟩ := origin2 t
  funext y
  show V c main_v23 (((cfg2.win 2).blk t).view.emb y) = V c main_v23 y
  congr 1
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Block `t` of any array of the result's shape is its rows `2000·t … 2000·t + 1999`. -/
theorem res2 (t : Fin cfg2.N) (X : Mat 100000 64) :
    ((cfg2.win 3).blk t).view.read (Elt Ideal) X = rowsAt (Fin.cast N_2 t) X := by
  obtain ⟨-, -, -, -, -, -, e0, e1⟩ := origin2 t
  funext y
  show X (((cfg2.win 3).blk t).view.emb y) = X _
  congr 1
  funext a; apply Fin.ext
  match a with
  | ⟨0, _⟩ => show win2_3.index t (0 : Fin 2) * 2000 + 1 * (y 0).val = t.val * 2000 + (y 0).val; rw [e0]; omega
  | ⟨1, _⟩ => show win2_3.index t (1 : Fin 2) * 64 + 1 * (y 1).val = (y 1).val; rw [e1]; omega

/-- What point `t` writes back is block `t` of the layer applied to the whole arrays: the tile's value is the layer of
    the tile's rows, and the layer acts row by row. -/
theorem tile2 (c : Dev nD) (t : Fin cfg2.N) :
    (dat2 (F := Ideal) V c).flushed 3 t
      = ((cfg2.win 3).blk t).view.read (Elt Ideal) (mm (relu (addRowB (V c main_v19) (V c main_v24))) (V c main_v23)) := by
  show (cfg2.win 3).cut (grid2.coords t) ((dat2 (F := Ideal) V c).after 3 t) = _
  rw [after2_3]
  unfold out2_3
  rw [View.canon_unit_zero zeroOrigin]
  simp only [View.ld_unit_zero (S := S2000x64) zeroOrigin, View.ld_unit_zero (S := S1x64) zeroOrigin, View.ld_unit_zero (S := S64x64) zeroOrigin]
  rw [Tile.pay2]
  rw [in2_0, in2_1, in2_2, res2]
  rw [addRowB_rowsAt, relu_rowsAt, mm_rowsAt]
  rfl

/-- An index of the result array lies in point `t`'s block iff each coordinate lies in the block's range on its axis. -/
theorem inBlock2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v25).slice (win2_3.rect t)).set ↔ _
  rw [View.set_slice_whole, Rect.mem_set_unit]
  exact Iff.rfl

/-- The fifty blocks tile the result array: row `r` lies in block `r / 2000`. -/
theorem tiled2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 2000 := ⟨Fin.cast N_2.symm ⟨(i 0).val / 2000, by omega⟩, rfl⟩
  obtain ⟨-, -, -, -, -, -, e0, e1⟩ := origin2 t
  refine ⟨t, flush2_3 t, ?_⟩
  rw [inBlock2]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 64 ≤ (i 1).val ∧ (i 1).val < win2_3.index t (1 : Fin 2) * 64 + 64; rw [e1]; omega

/-! ## The third layer: bias, rectifier, weight -/

/-- Where each operand's block sits at grid point `t`: the row-tiled arrays are at block `t` along the rows, every
    small operand is at block zero, and no block moves along the columns (decided over the fifty points). -/
theorem origin3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row-tiled operand's block at point `t` is rows `2000·t … 2000·t + 1999` of the array. -/
theorem in3_0 (c : Dev nD) (t : Fin cfg3.N) : iblk3 V c 0 t = rowsAt (Fin.cast N_3 t) (V c main_v35) := by
  obtain ⟨e0, e1, -⟩ := origin3 t
  funext y
  show V c main_v35 (((cfg3.win 0).blk t).view.emb y) = V c main_v35 _
  congr 1
  funext a; apply Fin.ext
  match a with
  | ⟨0, _⟩ => show win3_0.index t (0 : Fin 2) * 2000 + 1 * (y 0).val = t.val * 2000 + (y 0).val; rw [e0]; omega
  | ⟨1, _⟩ => show win3_0.index t (1 : Fin 2) * 64 + 1 * (y 1).val = (y 1).val; rw [e1]; omega

/-- A small operand's block at any point is the whole array. -/
theorem in3_1 (c : Dev nD) (t : Fin cfg3.N) : iblk3 V c 1 t = V c main_v40 := by
  obtain ⟨-, -, e0, e1, -⟩ := origin3 t
  funext y
  show V c main_v40 (((cfg3.win 1).blk t).view.emb y) = V c main_v40 y
  congr 1
  funext a; apply Fin.ext
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega

/-- A small operand's block at any point is the whole array. -/
theorem in3_2 (c : Dev nD) (t : Fin cfg3.N) : iblk3 V c 2 t = V c main_v39 := by
  obtain ⟨-, -, -, -, e0, e1, -⟩ := origin3 t
  funext y
  show V c main_v39 (((cfg3.win 2).blk t).view.emb y) = V c main_v39 y
  congr 1
  funext a; apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- Block `t` of any array of the result's shape is its rows `2000·t … 2000·t + 1999`. -/
theorem res3 (t : Fin cfg3.N) (X : Mat 100000 64) :
    ((cfg3.win 3).blk t).view.read (Elt Ideal) X = rowsAt (Fin.cast N_3 t) X := by
  obtain ⟨-, -, -, -, -, -, e0, e1⟩ := origin3 t
  funext y
  show X (((cfg3.win 3).blk t).view.emb y) = X _
  congr 1
  funext a; apply Fin.ext
  match a with
  | ⟨0, _⟩ => show win3_3.index t (0 : Fin 2) * 2000 + 1 * (y 0).val = t.val * 2000 + (y 0).val; rw [e0]; omega
  | ⟨1, _⟩ => show win3_3.index t (1 : Fin 2) * 64 + 1 * (y 1).val = (y 1).val; rw [e1]; omega

/-- What point `t` writes back is block `t` of the layer applied to the whole arrays: the tile's value is the layer of
    the tile's rows, and the layer acts row by row. -/
theorem tile3 (c : Dev nD) (t : Fin cfg3.N) :
    (dat3 (F := Ideal) V c).flushed 3 t
      = ((cfg3.win 3).blk t).view.read (Elt Ideal) (mm (relu (addRowB (V c main_v35) (V c main_v40))) (V c main_v39)) := by
  show (cfg3.win 3).cut (grid3.coords t) ((dat3 (F := Ideal) V c).after 3 t) = _
  rw [after3_3]
  unfold out3_3
  rw [View.canon_unit_zero zeroOrigin]
  simp only [View.ld_unit_zero (S := S2000x64) zeroOrigin, View.ld_unit_zero (S := S1x64) zeroOrigin, View.ld_unit_zero (S := S64x64) zeroOrigin]
  rw [Tile.pay3]
  rw [in3_0, in3_1, in3_2, res3]
  rw [addRowB_rowsAt, relu_rowsAt, mm_rowsAt]
  rfl

/-- An index of the result array lies in point `t`'s block iff each coordinate lies in the block's range on its axis. -/
theorem inBlock3 (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v41).slice (win3_3.rect t)).set ↔ _
  rw [View.set_slice_whole, Rect.mem_set_unit]
  exact Iff.rfl

/-- The fifty blocks tile the result array: row `r` lies in block `r / 2000`. -/
theorem tiled3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 2000 := ⟨Fin.cast N_3.symm ⟨(i 0).val / 2000, by omega⟩, rfl⟩
  obtain ⟨-, -, -, -, -, -, e0, e1⟩ := origin3 t
  refine ⟨t, flush3_3 t, ?_⟩
  rw [inBlock3]
  intro a
  match a with
  | ⟨0, _⟩ => show win3_3.index t (0 : Fin 2) * 2000 ≤ (i 0).val ∧ (i 0).val < win3_3.index t (0 : Fin 2) * 2000 + 2000; rw [e0, ht]; omega
  | ⟨1, _⟩ => show win3_3.index t (1 : Fin 2) * 64 ≤ (i 1).val ∧ (i 1).val < win3_3.index t (1 : Fin 2) * 64 + 64; rw [e1]; omega

/-! ## The decoder: bias, rectifier, two dense layers, log-softmax -/

/-- Where each operand's block sits at grid point `t`: the row-tiled arrays are at block `t` along the rows, every
    small operand is at block zero, and no block moves along the columns (decided over the fifty points). -/
theorem origin4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The row-tiled operand's block at point `t` is rows `2000·t … 2000·t + 1999` of the array. -/
theorem in4_0 (c : Dev nD) (t : Fin cfg4.N) : iblk4 V c 0 t = rowsAt (Fin.cast N_4 t) (V c main_v51) := by
  obtain ⟨e0, e1, -⟩ := origin4 t
  funext y
  show V c main_v51 (((cfg4.win 0).blk t).view.emb y) = V c main_v51 _
  congr 1
  funext a; apply Fin.ext
  match a with
  | ⟨0, _⟩ => show win4_0.index t (0 : Fin 2) * 2000 + 1 * (y 0).val = t.val * 2000 + (y 0).val; rw [e0]; omega
  | ⟨1, _⟩ => show win4_0.index t (1 : Fin 2) * 64 + 1 * (y 1).val = (y 1).val; rw [e1]; omega

/-- A small operand's block at any point is the whole array. -/
theorem in4_1 (c : Dev nD) (t : Fin cfg4.N) : iblk4 V c 1 t = V c main_v54 := by
  obtain ⟨-, -, e0, e1, -⟩ := origin4 t
  funext y
  show V c main_v54 (((cfg4.win 1).blk t).view.emb y) = V c main_v54 y
  congr 1
  funext a; apply Fin.ext
  match a with
  | ⟨0, _⟩ => show win4_1.index t (0 : Fin 2) * 1 + 1 * (y 0).val = (y 0).val; rw [e0]; omega
  | ⟨1, _⟩ => show win4_1.index t (1 : Fin 2) * 64 + 1 * (y 1).val = (y 1).val; rw [e1]; omega

/-- A small operand's block at any point is the whole array. -/
theorem in4_2 (c : Dev nD) (t : Fin cfg4.N) : iblk4 V c 2 t = V c main_arg8 := by
  obtain ⟨-, -, -, -, e0, e1, -⟩ := origin4 t
  funext y
  show V c main_arg8 (((cfg4.win 2).blk t).view.emb y) = V c main_arg8 y
  congr 1
  funext a; apply Fin.ext
  match a with
  | ⟨0, _⟩ => show win4_2.index t (0 : Fin 2) * 64 + 1 * (y 0).val = (y 0).val; rw [e0]; omega
  | ⟨1, _⟩ => show win4_2.index t (1 : Fin 2) * 256 + 1 * (y 1).val = (y 1).val; rw [e1]; omega

/-- A small operand's block at any point is the whole array. -/
theorem in4_3 (c : Dev nD) (t : Fin cfg4.N) : iblk4 V c 3 t = V c main_v55 := by
  obtain ⟨-, -, -, -, -, -, e0, e1, -⟩ := origin4 t
  funext y
  show V c main_v55 (((cfg4.win 3).blk t).view.emb y) = V c main_v55 y
  congr 1
  funext a; apply Fin.ext
  match a with
  | ⟨0, _⟩ => show win4_3.index t (0 : Fin 2) * 1 + 1 * (y 0).val = (y 0).val; rw [e0]; omega
  | ⟨1, _⟩ => show win4_3.index t (1 : Fin 2) * 256 + 1 * (y 1).val = (y 1).val; rw [e1]; omega

/-- A small operand's block at any point is the whole array. -/
theorem in4_4 (c : Dev nD) (t : Fin cfg4.N) : iblk4 V c 4 t = V c main_arg10 := by
  obtain ⟨-, -, -, -, -, -, -, -, e0, e1, -⟩ := origin4 t
  funext y
  show V c main_arg10 (((cfg4.win 4).blk t).view.emb y) = V c main_arg10 y
  congr 1
  funext a; apply Fin.ext
  match a with
  | ⟨0, _⟩ => show win4_4.index t (0 : Fin 2) * 256 + 1 * (y 0).val = (y 0).val; rw [e0]; omega
  | ⟨1, _⟩ => show win4_4.index t (1 : Fin 2) * 40 + 1 * (y 1).val = (y 1).val; rw [e1]; omega

/-- A small operand's block at any point is the whole array. -/
theorem in4_5 (c : Dev nD) (t : Fin cfg4.N) : iblk4 V c 5 t = V c main_v56 := by
  obtain ⟨-, -, -, -, -, -, -, -, -, -, e0, e1, -⟩ := origin4 t
  funext y
  show V c main_v56 (((cfg4.win 5).blk t).view.emb y) = V c main_v56 y
  congr 1
  funext a; apply Fin.ext
  match a with
  | ⟨0, _⟩ => show win4_5.index t (0 : Fin 2) * 1 + 1 * (y 0).val = (y 0).val; rw [e0]; omega
  | ⟨1, _⟩ => show win4_5.index t (1 : Fin 2) * 40 + 1 * (y 1).val = (y 1).val; rw [e1]; omega

/-- Block `t` of any array of the result's shape is its rows `2000·t … 2000·t + 1999`. -/
theorem res4 (t : Fin cfg4.N) (X : Mat 100000 40) :
    ((cfg4.win 6).blk t).view.read (Elt Ideal) X = rowsAt (Fin.cast N_4 t) X := by
  obtain ⟨-, -, -, -, -, -, -, -, -, -, -, -, e0, e1⟩ := origin4 t
  funext y
  show X (((cfg4.win 6).blk t).view.emb y) = X _
  congr 1
  funext a; apply Fin.ext
  match a with
  | ⟨0, _⟩ => show win4_6.index t (0 : Fin 2) * 2000 + 1 * (y 0).val = t.val * 2000 + (y 0).val; rw [e0]; omega
  | ⟨1, _⟩ => show win4_6.index t (1 : Fin 2) * 40 + 1 * (y 1).val = (y 1).val; rw [e1]; omega

/-- What point `t` writes back is block `t` of the layer applied to the whole arrays: the tile's value is the layer of
    the tile's rows, and the layer acts row by row. -/
theorem tile4 (c : Dev nD) (t : Fin cfg4.N) :
    (dat4 (F := Ideal) V c).flushed 6 t
      = ((cfg4.win 6).blk t).view.read (Elt Ideal) (lsm (addRowB (mm (relu (addRowB (mm (relu (addRowB (V c main_v51) (V c main_v54))) (V c main_arg8)) (V c main_v55))) (V c main_arg10)) (V c main_v56))) := by
  show (cfg4.win 6).cut (grid4.coords t) ((dat4 (F := Ideal) V c).after 6 t) = _
  rw [after4_6]
  unfold out4_6
  rw [View.canon_unit_zero zeroOrigin]
  simp only [View.ld_unit_zero (S := S2000x64) zeroOrigin, View.ld_unit_zero (S := S1x64) zeroOrigin, View.ld_unit_zero (S := S64x256) zeroOrigin, View.ld_unit_zero (S := S1x256) zeroOrigin, View.ld_unit_zero (S := S256x40) zeroOrigin, View.ld_unit_zero (S := S1x40) zeroOrigin]
  rw [Tile.pay4]
  rw [in4_0, in4_1, in4_2, in4_3, in4_4, in4_5, res4]
  rw [addRowB_rowsAt, relu_rowsAt, mm_rowsAt, addRowB_rowsAt, relu_rowsAt, mm_rowsAt, addRowB_rowsAt, lsm_rowsAt]
  rfl

/-- An index of the result array lies in point `t`'s block iff each coordinate lies in the block's range on its axis. -/
theorem inBlock4 (t : Fin cfg4.N) (i : S100000x40.Idx) :
    i ∈ ((cfg4.win 6).blk t).view.set ↔ ∀ a : Fin 2, win4_6.index t a * S2000x40.size a ≤ (i a).val ∧ (i a).val < win4_6.index t a * S2000x40.size a + S2000x40.size a := by
  show i ∈ ((View.whole main_v57).slice (win4_6.rect t)).set ↔ _
  rw [View.set_slice_whole, Rect.mem_set_unit]
  exact Iff.rfl

/-- The fifty blocks tile the result array: row `r` lies in block `r / 2000`. -/
theorem tiled4 (i : S100000x40.Idx) :
    ∃ t : Fin cfg4.N, (cfg4.win 6).flush t = true ∧ i ∈ ((cfg4.win 6).blk t).view.set := by
  have hi0 : (i 0).val < 100000 := (i 0).isLt
  have hi1 : (i 1).val < 40 := (i 1).isLt
  obtain ⟨t, ht⟩ : ∃ t : Fin cfg4.N, t.val = (i 0).val / 2000 := ⟨Fin.cast N_4.symm ⟨(i 0).val / 2000, by omega⟩, rfl⟩
  obtain ⟨-, -, -, -, -, -, -, -, -, -, -, -, e0, e1⟩ := origin4 t
  refine ⟨t, flush4_6 t, ?_⟩
  rw [inBlock4]
  intro a
  match a with
  | ⟨0, _⟩ => show win4_6.index t (0 : Fin 2) * 2000 ≤ (i 0).val ∧ (i 0).val < win4_6.index t (0 : Fin 2) * 2000 + 2000; rw [e0, ht]; omega
  | ⟨1, _⟩ => show win4_6.index t (1 : Fin 2) * 40 ≤ (i 1).val ∧ (i 1).val < win4_6.index t (1 : Fin 2) * 40 + 40; rw [e1]; omega

end B

/-! ## The three result arrays -/

/-- The second layer's result array. -/
theorem final2 (c : Dev nD) :
    (dat2 (F := Ideal) V c).arrAt 3 cfg2.N
      = mm (relu (addRowB (V c main_v19) (V c main_v24))) (V c main_v23) :=
  (dat2 (F := Ideal) V c).arrAt_eq_of_cover 3 _ (fun t _ => B.tile2 V c t) B.tiled2

/-- The third layer's result array. -/
theorem final3 (c : Dev nD) :
    (dat3 (F := Ideal) V c).arrAt 3 cfg3.N
      = mm (relu (addRowB (V c main_v35) (V c main_v40))) (V c main_v39) :=
  (dat3 (F := Ideal) V c).arrAt_eq_of_cover 3 _ (fun t _ => B.tile3 V c t) B.tiled3

/-- The decoder's result array. -/
theorem final4 (c : Dev nD) :
    (dat4 (F := Ideal) V c).arrAt 6 cfg4.N
      = lsm (addRowB (mm (relu (addRowB (mm (relu (addRowB (V c main_v51) (V c main_v54))) (V c main_arg8)) (V c main_v55))) (V c main_arg10)) (V c main_v56)) :=
  (dat4 (F := Ideal) V c).arrAt_eq_of_cover 6 _ (fun t _ => B.tile4 V c t) B.tiled4

end Cert.KernelIdeal.Whole

end
-- ==== Proof.Agg.lean ====
/-
  The aggregation step of a graph convolution, and the whole network.  The edge list is a `2 × 1200000` array of node
  numbers: row 0 the source of each edge, row 1 its destination.  A layer's messages are gathered from the source rows
  (a negative source number wrapped once by the node count, as array indexing does) and summed into the destination rows
  of a zero array.  Both programs spell this step with the same host operations, so it is carried as ONE function `agg`
  and never opened.  `model` is the network: encoder, three rounds of "weight, aggregate, bias, rectifier", decoder.
-/
import Idealize.ShloMosaic.PureOps.Ideal
import Idealize.ShloMosaic.PureOps.Contract
import proofs.«165432_j22093311771370_1_alg».proof.Proof.Spec

noncomputable section

namespace Cert.Gcn

open Idealize.ShloMosaic

/-- How a row is gathered per edge: one start index per edge, along the node axis, a whole row of 64 taken. -/
def gatherD : GatherDims ⟨2, ![100000, 64]⟩ ⟨2, ![1200000, 1]⟩ ⟨2, ![1200000, 64]⟩ where
  offsetDims := [1]
  collapsedSliceDims := [0]
  operandBatchingDims := []
  startIndicesBatchingDims := []
  startIndexMap := [0]
  indexVectorDim := 1
  sliceSizes := ![1, 64]
  wf := by decide

/-- How a row is added per edge: one index per edge, along the node axis, a whole row of 64 added. -/
def scatterD : ScatterDims ⟨2, ![100000, 64]⟩ ⟨2, ![1200000, 1]⟩ ⟨2, ![1200000, 64]⟩ where
  updateWindowDims := [1]
  insertedWindowDims := [0]
  scatterDimsToOperandDims := [0]
  indexVectorDim := 1
  wf := by decide

/-- Row `r` of the edge list as a vector of 1200000 node numbers. -/
def edgeRow0 (e : IVec ⟨2, ![2, 1200000]⟩ 32) : IVec ⟨1, ![1200000]⟩ 32 :=
  shapeCast ⟨1, ![1200000]⟩ (extractStridedSlice ⟨2, ![1, 1200000]⟩ ![0, 0] e (by decide)) (by decide)
def edgeRow1 (e : IVec ⟨2, ![2, 1200000]⟩ 32) : IVec ⟨1, ![1200000]⟩ 32 :=
  shapeCast ⟨1, ![1200000]⟩ (extractStridedSlice ⟨2, ![1, 1200000]⟩ ![1, 0] e (by decide)) (by decide)

/-- The source node of each edge as a column of start indices, a negative number wrapped by the node count. -/
def srcIdx (e : IVec ⟨2, ![2, 1200000]⟩ 32) : IVec ⟨2, ![1200000, 1]⟩ 32 :=
  broadcastInDim ⟨2, ![1200000, 1]⟩ ![0] (by decide)
    (select (cmpi .slt (edgeRow0 e) (broadcastInDim ⟨1, ![1200000]⟩ ![] (by decide) (constantI ⟨0, ![]⟩ 32 0#32)))
      (addi (edgeRow0 e) (broadcastInDim ⟨1, ![1200000]⟩ ![] (by decide) (constantI ⟨0, ![]⟩ 32 100000#32)))
      (edgeRow0 e))

/-- The destination node of each edge as a column of indices. -/
def dstIdx (e : IVec ⟨2, ![2, 1200000]⟩ 32) : IVec ⟨2, ![1200000, 1]⟩ 32 :=
  broadcastInDim ⟨2, ![1200000, 1]⟩ ![0] (by decide) (edgeRow1 e)

/-- One aggregation: gather the messages' source rows, add them into the destination rows of a zero array. -/
def agg (e : IVec ⟨2, ![2, 1200000]⟩ 32) (h : Mat 100000 64) : Mat 100000 64 :=
  Host.scatterAdd (F := Ideal) scatterD
    (broadcastInDim ⟨2, ![100000, 64]⟩ ![] (by decide) (constant (F := Ideal) ⟨0, ![]⟩ .f32 0x00000000#32))
    (dstIdx e) (Host.gather gatherD h (srcIdx e))

/-- The network. -/
def model (x : Mat 100000 128) (e : IVec ⟨2, ![2, 1200000]⟩ 32) (w0 : Mat 128 256) (b0 : Row 256) (w1 : Mat 256 64) (b1 : Row 64)
    (gw : (⟨3, ![3, 64, 64]⟩ : Shape).Idx → EReal) (gb : Mat 3 64) (dw0 : Mat 64 256) (db0 : Row 256) (dw1 : Mat 256 40) (db1 : Row 40) :
    Mat 100000 40 :=
  dec (agg e (comb (agg e (comb (agg e (mm (enc x w0 b0 w1 b1) (wsl 0 gw))) (bsl 0 gb) (wsl 1 gw))) (bsl 1 gb) (wsl 2 gw)))
    (bsl 2 gb) dw0 db0 dw1 db1

end Cert.Gcn

end
-- ==== Proof.KChain.lean ====
/-
  The idealized kernel program's result, read back through its ten segments.  Between the five tiled computations the
  program runs host operations; following each buffer from the last boundary back to the launch memory — a tiled
  computation leaves its result array at its layer of the arrays it was given (KFinalA / KFinalB), a host stretch writes
  only its own results, and no segment writes an argument or the two edge rows once they are made — the result array
  ends at the network `model` (Agg.lean) of the twelve arguments as launched.
-/
import proofs.«165432_j22093311771370_1_alg».proof.Proof.PFrameKernelIdeal
import proofs.«165432_j22093311771370_1_alg».proof.Proof.KFinalA
import proofs.«165432_j22093311771370_1_alg».proof.Proof.KFinalB
import proofs.«165432_j22093311771370_1_alg».proof.Proof.Agg
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.Whole Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

open Idealize.ShloMosaic.ValueIdx

/-! ## Reshaped biases and slices of the stacked parameters, as the plain arrays they are -/

/-- A vector laid out as a one-row matrix. -/
theorem cast_asRow {j : Nat} (b : Row j) (h : (⟨1, ![j]⟩ : Shape).ShapeCasts ⟨2, ![1, j]⟩) :
    shapeCast ⟨2, ![1, j]⟩ b h = asRow b := by
  funext i
  rw [eq_ix2 i]
  exact shapeCast_a_1a_apply b h (i 0) (i 1)

/-- Slice `o` of the three stacked weight matrices, with its unit axis dropped. -/
theorem slice_w (o : Nat) (r : Fin 3) (ho : r.val = o) (w : (⟨3, ![3, 64, 64]⟩ : Shape).Idx → EReal)
    (hs : (⟨3, ![3, 64, 64]⟩ : Shape).Slices ![o, 0, 0] ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ ![o, 0, 0] w hs) hc = wsl r w := by
  funext i
  have hi : i = ix2 (n0 := 64) (n1 := 64) (i 0) (i 1) := eq_ix2 i
  have h1 := shapeCast_1ab_ab_apply (extractStridedSlice ⟨3, ![1, 64, 64]⟩ ![o, 0, 0] w hs) hc (i 0) (i 1)
  have h2 : extractStridedSlice ⟨3, ![1, 64, 64]⟩ ![o, 0, 0] w hs (ix3 (n0 := 1) (n1 := 64) (n2 := 64) 0 (i 0) (i 1))
      = w (ix3 (n0 := 3) (n1 := 64) (n2 := 64) r (i 0) (i 1)) :=
    extractStridedSlice_apply _ w hs _ _ (fun a => match a with
      | ⟨0, _⟩ => by show r.val = o + 0; omega
      | ⟨1, _⟩ => by show (i 0).val = 0 + (i 0).val; omega
      | ⟨2, _⟩ => by show (i 1).val = 0 + (i 1).val; omega)
  exact (congrArg _ hi).trans (h1.trans h2)

/-- Slice `o` of the three stacked bias vectors, with its unit axis dropped. -/
theorem slice_b (o : Nat) (r : Fin 3) (ho : r.val = o) (b : Mat 3 64)
    (hs : (⟨2, ![3, 64]⟩ : Shape).Slices ![o, 0] ⟨2, ![1, 64]⟩)
    (hc : (⟨2, ![1, 64]⟩ : Shape).ShapeCasts ⟨1, ![64]⟩) :
    shapeCast ⟨1, ![64]⟩ (extractStridedSlice ⟨2, ![1, 64]⟩ ![o, 0] b hs) hc = bsl r b := by
  funext i
  have hi : i = ix1 (n := 64) (i 0) := eq_ix1 i
  have h1 := shapeCast_1a_a_apply (extractStridedSlice ⟨2, ![1, 64]⟩ ![o, 0] b hs) hc (i 0)
  have h2 : extractStridedSlice ⟨2, ![1, 64]⟩ ![o, 0] b hs (ix2 (n0 := 1) (n1 := 64) 0 (i 0))
      = b (ix2 (n0 := 3) (n1 := 64) r (i 0)) :=
    extractStridedSlice_apply _ b hs _ _ (fun a => match a with
      | ⟨0, _⟩ => by show r.val = o + 0; omega
      | ⟨1, _⟩ => by show (i 0).val = 0 + (i 0).val; omega)
  exact (congrArg _ hi).trans (h1.trans h2)

/-! ## What each host stretch writes, and that it leaves every other buffer -/

/-- The buffers host stretch 0 writes. -/
abbrev hw0 : List (Ref sig .tc) := [main_v0, main_v1, main_v2, main_v3, main_v4, main_v5]
theorem hostOps0_writes : (hostOps0 : List (HloOp τ sig (Elt Ideal))).Forall fun op => op.writes ⊆ (hw0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 0 does not write is after it as before. -/
theorem S1 (c : Dev nD) (b : Ref sig .tc) (h : b ∉ hw0) :
    W1 m ρ c (Proc.devRef .tc b) = W0 m ρ c (Proc.devRef .tc b) :=
  StableHlo.after_of_writes_sub hostOps0 _ hostOps0_writes h

/-- The buffers host stretch 1 writes. -/
abbrev hw1 : List (Ref sig .tc) := [main_v7, main_v8]
theorem hostOps1_writes : (hostOps1 : List (HloOp τ sig (Elt Ideal))).Forall fun op => op.writes ⊆ (hw1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 1 does not write is after it as before. -/
theorem S3 (c : Dev nD) (b : Ref sig .tc) (h : b ∉ hw1) :
    W3 m ρ c (Proc.devRef .tc b) = W2 m ρ c (Proc.devRef .tc b) :=
  StableHlo.after_of_writes_sub hostOps1 _ hostOps1_writes h

/-- The buffers host stretch 2 writes. -/
abbrev hw2 : List (Ref sig .tc) := [main_c, main_v10, main_v11, main_c_0, main_v12, main_v13, main_v14, main_v15, main_v16, main_cst, main_v17, main_v18, main_v19, main_v20, main_v21, main_v22, main_v23, main_v24]
theorem hostOps2_writes : (hostOps2 : List (HloOp τ sig (Elt Ideal))).Forall fun op => op.writes ⊆ (hw2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 2 does not write is after it as before. -/
theorem S5 (c : Dev nD) (b : Ref sig .tc) (h : b ∉ hw2) :
    W5 m ρ c (Proc.devRef .tc b) = W4 m ρ c (Proc.devRef .tc b) :=
  StableHlo.after_of_writes_sub hostOps2 _ hostOps2_writes h

/-- The buffers host stretch 3 writes. -/
abbrev hw3 : List (Ref sig .tc) := [main_c_1, main_v26, main_v27, main_c_2, main_v28, main_v29, main_v30, main_v31, main_v32, main_cst_3, main_v33, main_v34, main_v35, main_v36, main_v37, main_v38, main_v39, main_v40]
theorem hostOps3_writes : (hostOps3 : List (HloOp τ sig (Elt Ideal))).Forall fun op => op.writes ⊆ (hw3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 3 does not write is after it as before. -/
theorem S7 (c : Dev nD) (b : Ref sig .tc) (h : b ∉ hw3) :
    W7 m ρ c (Proc.devRef .tc b) = W6 m ρ c (Proc.devRef .tc b) :=
  StableHlo.after_of_writes_sub hostOps3 _ hostOps3_writes h

/-- The buffers host stretch 4 writes. -/
abbrev hw4 : List (Ref sig .tc) := [main_c_4, main_v42, main_v43, main_c_5, main_v44, main_v45, main_v46, main_v47, main_v48, main_cst_6, main_v49, main_v50, main_v51, main_v52, main_v53, main_v54, main_v55, main_v56]
theorem hostOps4_writes : (hostOps4 : List (HloOp τ sig (Elt Ideal))).Forall fun op => op.writes ⊆ (hw4.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 4 does not write is after it as before. -/
theorem S9 (c : Dev nD) (b : Ref sig .tc) (h : b ∉ hw4) :
    W9 m ρ c (Proc.devRef .tc b) = W8 m ρ c (Proc.devRef .tc b) :=
  StableHlo.after_of_writes_sub hostOps4 _ hostOps4_writes h

/-! ## Buffers no segment between two boundaries writes -/

theorem K4 (c : Dev nD) (b : Ref sig .tc) (r0 : ∀ w, Pipeline.arrRef spec0 w ≠ b) (h1 : b ∉ hw1) (r1 : ∀ w, Pipeline.arrRef spec1 w ≠ b) :
    W4 m ρ c (Proc.devRef .tc b) = W1 m ρ c (Proc.devRef .tc b) :=
  (W4_of_ne m ρ c b r1).trans ((S3 m ρ c b h1).trans (W2_of_ne m ρ c b r0))
theorem K6 (c : Dev nD) (b : Ref sig .tc) (r0 : ∀ w, Pipeline.arrRef spec0 w ≠ b) (h1 : b ∉ hw1) (r1 : ∀ w, Pipeline.arrRef spec1 w ≠ b)
    (h2 : b ∉ hw2) (r2 : ∀ w, Pipeline.arrRef spec2 w ≠ b) :
    W6 m ρ c (Proc.devRef .tc b) = W1 m ρ c (Proc.devRef .tc b) :=
  (W6_of_ne m ρ c b r2).trans ((S5 m ρ c b h2).trans (K4 m ρ c b r0 h1 r1))
theorem K8 (c : Dev nD) (b : Ref sig .tc) (r0 : ∀ w, Pipeline.arrRef spec0 w ≠ b) (h1 : b ∉ hw1) (r1 : ∀ w, Pipeline.arrRef spec1 w ≠ b)
    (h2 : b ∉ hw2) (r2 : ∀ w, Pipeline.arrRef spec2 w ≠ b) (h3 : b ∉ hw3) (r3 : ∀ w, Pipeline.arrRef spec3 w ≠ b) :
    W8 m ρ c (Proc.devRef .tc b) = W1 m ρ c (Proc.devRef .tc b) :=
  (W8_of_ne m ρ c b r3).trans ((S7 m ρ c b h3).trans (K6 m ρ c b r0 h1 r1 h2 r2))

/-! ## The arguments where they are read: as launched -/

theorem a0_1 (c : Dev nD) : W1 m ρ c (Proc.devRef .tc main_arg0) = (m ((c.tc : Thread nD τ).loc main_arg0)) := S1 m ρ c main_arg0 (by decide)
theorem a2_1 (c : Dev nD) : W1 m ρ c (Proc.devRef .tc main_arg2) = (m ((c.tc : Thread nD τ).loc main_arg2)) := S1 m ρ c main_arg2 (by decide)
theorem a4_1 (c : Dev nD) : W1 m ρ c (Proc.devRef .tc main_arg4) = (m ((c.tc : Thread nD τ).loc main_arg4)) := S1 m ρ c main_arg4 (by decide)
theorem a6_2 (c : Dev nD) : W2 m ρ c (Proc.devRef .tc main_arg6) = (m ((c.tc : Thread nD τ).loc main_arg6)) :=
  (W2_of_ne m ρ c main_arg6 (by decide)).trans (S1 m ρ c main_arg6 (by decide))
theorem a6_4 (c : Dev nD) : W4 m ρ c (Proc.devRef .tc main_arg6) = (m ((c.tc : Thread nD τ).loc main_arg6)) :=
  (K4 m ρ c main_arg6 (by decide) (by decide) (by decide)).trans (S1 m ρ c main_arg6 (by decide))
theorem a6_6 (c : Dev nD) : W6 m ρ c (Proc.devRef .tc main_arg6) = (m ((c.tc : Thread nD τ).loc main_arg6)) :=
  (K6 m ρ c main_arg6 (by decide) (by decide) (by decide) (by decide) (by decide)).trans (S1 m ρ c main_arg6 (by decide))
theorem a7_4 (c : Dev nD) : W4 m ρ c (Proc.devRef .tc main_arg7) = (m ((c.tc : Thread nD τ).loc main_arg7)) :=
  (K4 m ρ c main_arg7 (by decide) (by decide) (by decide)).trans (S1 m ρ c main_arg7 (by decide))
theorem a7_6 (c : Dev nD) : W6 m ρ c (Proc.devRef .tc main_arg7) = (m ((c.tc : Thread nD τ).loc main_arg7)) :=
  (K6 m ρ c main_arg7 (by decide) (by decide) (by decide) (by decide) (by decide)).trans (S1 m ρ c main_arg7 (by decide))
theorem a7_8 (c : Dev nD) : W8 m ρ c (Proc.devRef .tc main_arg7) = (m ((c.tc : Thread nD τ).loc main_arg7)) :=
  (K8 m ρ c main_arg7 (by decide) (by decide) (by decide) (by decide) (by decide) (by decide) (by decide)).trans (S1 m ρ c main_arg7 (by decide))
theorem a9_8 (c : Dev nD) : W8 m ρ c (Proc.devRef .tc main_arg9) = (m ((c.tc : Thread nD τ).loc main_arg9)) :=
  (K8 m ρ c main_arg9 (by decide) (by decide) (by decide) (by decide) (by decide) (by decide) (by decide)).trans (S1 m ρ c main_arg9 (by decide))
theorem a11_8 (c : Dev nD) : W8 m ρ c (Proc.devRef .tc main_arg11) = (m ((c.tc : Thread nD τ).loc main_arg11)) :=
  (K8 m ρ c main_arg11 (by decide) (by decide) (by decide) (by decide) (by decide) (by decide) (by decide)).trans (S1 m ρ c main_arg11 (by decide))
theorem a8_9 (c : Dev nD) : W9 m ρ c (Proc.devRef .tc main_arg8) = (m ((c.tc : Thread nD τ).loc main_arg8)) :=
  (S9 m ρ c main_arg8 (by decide)).trans ((K8 m ρ c main_arg8 (by decide) (by decide) (by decide) (by decide) (by decide) (by decide) (by decide)).trans (S1 m ρ c main_arg8 (by decide)))
theorem a10_9 (c : Dev nD) : W9 m ρ c (Proc.devRef .tc main_arg10) = (m ((c.tc : Thread nD τ).loc main_arg10)) :=
  (S9 m ρ c main_arg10 (by decide)).trans ((K8 m ρ c main_arg10 (by decide) (by decide) (by decide) (by decide) (by decide) (by decide) (by decide)).trans (S1 m ρ c main_arg10 (by decide)))

/-! ## The two edge rows, made by the first host stretch and read by every aggregation -/

theorem e0_1 (c : Dev nD) : W1 m ρ c (Proc.devRef .tc main_v1) = edgeRow0 (m ((c.tc : Thread nD τ).loc main_arg1)) := by
  show StableHlo.after hostOps0 (W0 m ρ c) (Proc.devRef .tc main_v1) = _
  after_results
  rfl
theorem e1_1 (c : Dev nD) : W1 m ρ c (Proc.devRef .tc main_v3) = edgeRow1 (m ((c.tc : Thread nD τ).loc main_arg1)) := by
  show StableHlo.after hostOps0 (W0 m ρ c) (Proc.devRef .tc main_v3) = _
  after_results
  rfl
theorem e0_4 (c : Dev nD) : W4 m ρ c (Proc.devRef .tc main_v1) = edgeRow0 (m ((c.tc : Thread nD τ).loc main_arg1)) := (K4 m ρ c main_v1 (by decide) (by decide) (by decide)).trans (e0_1 m ρ c)
theorem e0_6 (c : Dev nD) : W6 m ρ c (Proc.devRef .tc main_v1) = edgeRow0 (m ((c.tc : Thread nD τ).loc main_arg1)) := (K6 m ρ c main_v1 (by decide) (by decide) (by decide) (by decide) (by decide)).trans (e0_1 m ρ c)
theorem e0_8 (c : Dev nD) : W8 m ρ c (Proc.devRef .tc main_v1) = edgeRow0 (m ((c.tc : Thread nD τ).loc main_arg1)) := (K8 m ρ c main_v1 (by decide) (by decide) (by decide) (by decide) (by decide) (by decide) (by decide)).trans (e0_1 m ρ c)
theorem e1_4 (c : Dev nD) : W4 m ρ c (Proc.devRef .tc main_v3) = edgeRow1 (m ((c.tc : Thread nD τ).loc main_arg1)) := (K4 m ρ c main_v3 (by decide) (by decide) (by decide)).trans (e1_1 m ρ c)
theorem e1_6 (c : Dev nD) : W6 m ρ c (Proc.devRef .tc main_v3) = edgeRow1 (m ((c.tc : Thread nD τ).loc main_arg1)) := (K6 m ρ c main_v3 (by decide) (by decide) (by decide) (by decide) (by decide)).trans (e1_1 m ρ c)
theorem e1_8 (c : Dev nD) : W8 m ρ c (Proc.devRef .tc main_v3) = edgeRow1 (m ((c.tc : Thread nD τ).loc main_arg1)) := (K8 m ρ c main_v3 (by decide) (by decide) (by decide) (by decide) (by decide) (by decide) (by decide)).trans (e1_1 m ρ c)

/-! ## The encoder -/

theorem b3_1 (c : Dev nD) : W1 m ρ c (Proc.devRef .tc main_v4) = asRow (m ((c.tc : Thread nD τ).loc main_arg3)) := by
  show StableHlo.after hostOps0 (W0 m ρ c) (Proc.devRef .tc main_v4) = _
  after_results
  exact cast_asRow (m ((c.tc : Thread nD τ).loc main_arg3)) _
theorem b5_1 (c : Dev nD) : W1 m ρ c (Proc.devRef .tc main_v5) = asRow (m ((c.tc : Thread nD τ).loc main_arg5)) := by
  show StableHlo.after hostOps0 (W0 m ρ c) (Proc.devRef .tc main_v5) = _
  after_results
  exact cast_asRow (m ((c.tc : Thread nD τ).loc main_arg5)) _

/-- The encoder's result array is the encoder of the arguments. -/
theorem C0 (c : Dev nD) : W2 m ρ c (Proc.devRef .tc main_v6) = enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  have h := (W2_arr m ρ c 5).trans (final0 (V1 m ρ) c)
  dsimp only [V1] at h
  rw [a0_1 m ρ c, a2_1 m ρ c, a4_1 m ρ c, b3_1 m ρ c, b5_1 m ρ c] at h
  exact h

/-! ## The first layer's weight -/

theorem w0_3 (c : Dev nD) : W3 m ρ c (Proc.devRef .tc main_v8) = wsl 0 (m ((c.tc : Thread nD τ).loc main_arg6)) := by
  show StableHlo.after hostOps1 (W2 m ρ c) (Proc.devRef .tc main_v8) = _
  after_results
  rw [a6_2 m ρ c]
  exact slice_w 0 0 rfl (m ((c.tc : Thread nD τ).loc main_arg6)) _ _

/-- The first layer's result array: the encoder's result times the first weight. -/
theorem C1 (c : Dev nD) : W4 m ρ c (Proc.devRef .tc main_v9) = mm (enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (wsl 0 (m ((c.tc : Thread nD τ).loc main_arg6))) := by
  have h := (W4_arr m ρ c 2).trans (final1 (V3 m ρ) c)
  dsimp only [V3] at h
  rw [S3 m ρ c main_v6 (by decide), C0 m ρ c, w0_3 m ρ c] at h
  exact h

/-! ## Host stretch 2: one aggregation, the layer's bias and the next weight -/

/-- The gather / scatter-add chain is the aggregation of the array it reads. -/
theorem g_2 (c : Dev nD) : W5 m ρ c (Proc.devRef .tc main_v19) = agg (m ((c.tc : Thread nD τ).loc main_arg1)) (W4 m ρ c (Proc.devRef .tc main_v9)) := by
  show StableHlo.after hostOps2 (W4 m ρ c) (Proc.devRef .tc main_v19) = _
  after_results
  rw [e0_4 m ρ c, e1_4 m ρ c]
  rfl
theorem b_2 (c : Dev nD) : W5 m ρ c (Proc.devRef .tc main_v24) = asRow (bsl 0 (m ((c.tc : Thread nD τ).loc main_arg7))) := by
  show StableHlo.after hostOps2 (W4 m ρ c) (Proc.devRef .tc main_v24) = _
  after_results
  rw [a7_4 m ρ c]
  exact (cast_asRow _ _).trans (congrArg asRow (slice_b 0 0 rfl (m ((c.tc : Thread nD τ).loc main_arg7)) _ _))
theorem w_2 (c : Dev nD) : W5 m ρ c (Proc.devRef .tc main_v23) = wsl 1 (m ((c.tc : Thread nD τ).loc main_arg6)) := by
  show StableHlo.after hostOps2 (W4 m ρ c) (Proc.devRef .tc main_v23) = _
  after_results
  rw [a6_4 m ρ c]
  exact slice_w 1 1 rfl (m ((c.tc : Thread nD τ).loc main_arg6)) _ _

/-! ## Host stretch 3: one aggregation, the layer's bias and the next weight -/

/-- The gather / scatter-add chain is the aggregation of the array it reads. -/
theorem g_3 (c : Dev nD) : W7 m ρ c (Proc.devRef .tc main_v35) = agg (m ((c.tc : Thread nD τ).loc main_arg1)) (W6 m ρ c (Proc.devRef .tc main_v25)) := by
  show StableHlo.after hostOps3 (W6 m ρ c) (Proc.devRef .tc main_v35) = _
  after_results
  rw [e0_6 m ρ c, e1_6 m ρ c]
  rfl
theorem b_3 (c : Dev nD) : W7 m ρ c (Proc.devRef .tc main_v40) = asRow (bsl 1 (m ((c.tc : Thread nD τ).loc main_arg7))) := by
  show StableHlo.after hostOps3 (W6 m ρ c) (Proc.devRef .tc main_v40) = _
  after_results
  rw [a7_6 m ρ c]
  exact (cast_asRow _ _).trans (congrArg asRow (slice_b 1 1 rfl (m ((c.tc : Thread nD τ).loc main_arg7)) _ _))
theorem w_3 (c : Dev nD) : W7 m ρ c (Proc.devRef .tc main_v39) = wsl 2 (m ((c.tc : Thread nD τ).loc main_arg6)) := by
  show StableHlo.after hostOps3 (W6 m ρ c) (Proc.devRef .tc main_v39) = _
  after_results
  rw [a6_6 m ρ c]
  exact slice_w 2 2 rfl (m ((c.tc : Thread nD τ).loc main_arg6)) _ _

/-! ## Host stretch 4: one aggregation, the layer's bias, the decoder's biases -/

/-- The gather / scatter-add chain is the aggregation of the array it reads. -/
theorem g_4 (c : Dev nD) : W9 m ρ c (Proc.devRef .tc main_v51) = agg (m ((c.tc : Thread nD τ).loc main_arg1)) (W8 m ρ c (Proc.devRef .tc main_v41)) := by
  show StableHlo.after hostOps4 (W8 m ρ c) (Proc.devRef .tc main_v51) = _
  after_results
  rw [e0_8 m ρ c, e1_8 m ρ c]
  rfl
theorem b_4 (c : Dev nD) : W9 m ρ c (Proc.devRef .tc main_v54) = asRow (bsl 2 (m ((c.tc : Thread nD τ).loc main_arg7))) := by
  show StableHlo.after hostOps4 (W8 m ρ c) (Proc.devRef .tc main_v54) = _
  after_results
  rw [a7_8 m ρ c]
  exact (cast_asRow _ _).trans (congrArg asRow (slice_b 2 2 rfl (m ((c.tc : Thread nD τ).loc main_arg7)) _ _))

theorem b9_9 (c : Dev nD) : W9 m ρ c (Proc.devRef .tc main_v55) = asRow (m ((c.tc : Thread nD τ).loc main_arg9)) := by
  show StableHlo.after hostOps4 (W8 m ρ c) (Proc.devRef .tc main_v55) = _
  after_results
  rw [a9_8 m ρ c]
  exact cast_asRow (m ((c.tc : Thread nD τ).loc main_arg9)) _
theorem b11_9 (c : Dev nD) : W9 m ρ c (Proc.devRef .tc main_v56) = asRow (m ((c.tc : Thread nD τ).loc main_arg11)) := by
  show StableHlo.after hostOps4 (W8 m ρ c) (Proc.devRef .tc main_v56) = _
  after_results
  rw [a11_8 m ρ c]
  exact cast_asRow (m ((c.tc : Thread nD τ).loc main_arg11)) _

/-! ## The three later tiled computations, each on the aggregation of the one before -/

theorem C2 (c : Dev nD) : W6 m ρ c (Proc.devRef .tc main_v25) = comb (agg (m ((c.tc : Thread nD τ).loc main_arg1)) (W4 m ρ c (Proc.devRef .tc main_v9))) (bsl 0 (m ((c.tc : Thread nD τ).loc main_arg7))) (wsl 1 (m ((c.tc : Thread nD τ).loc main_arg6))) := by
  have h := (W6_arr m ρ c 3).trans (final2 (V5 m ρ) c)
  dsimp only [V5] at h
  rw [g_2 m ρ c, b_2 m ρ c, w_2 m ρ c] at h
  exact h
theorem C3 (c : Dev nD) : W8 m ρ c (Proc.devRef .tc main_v41) = comb (agg (m ((c.tc : Thread nD τ).loc main_arg1)) (W6 m ρ c (Proc.devRef .tc main_v25))) (bsl 1 (m ((c.tc : Thread nD τ).loc main_arg7))) (wsl 2 (m ((c.tc : Thread nD τ).loc main_arg6))) := by
  have h := (W8_arr m ρ c 3).trans (final3 (V7 m ρ) c)
  dsimp only [V7] at h
  rw [g_3 m ρ c, b_3 m ρ c, w_3 m ρ c] at h
  exact h
theorem C4 (c : Dev nD) : W10 m ρ c (Proc.devRef .tc main_v57)
    = dec (agg (m ((c.tc : Thread nD τ).loc main_arg1)) (W8 m ρ c (Proc.devRef .tc main_v41))) (bsl 2 (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) := by
  have h := (W10_arr m ρ c 6).trans (final4 (V9 m ρ) c)
  dsimp only [V9] at h
  rw [g_4 m ρ c, b_4 m ρ c, a8_9 m ρ c, b9_9 m ρ c, a10_9 m ρ c, b11_9 m ρ c] at h
  exact h

/-- After the last tiled computation the result array holds the network of the arguments as launched. -/
theorem kernel_value (c : Dev nD) :
    W10 m ρ c (Proc.devRef .tc main_v57)
      = model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [C4 m ρ c, C3 m ρ c, C2 m ρ c, C1 m ρ c]
  rfl

end Cert.KernelIdeal.Chain

end
-- ==== Proof.RRun.lean ====
/-
  The reference program is a straight line of 113 host operations; what its result buffer holds after them, from any
  contents `V` of the buffers, is the composition of the operations' functions applied to `V` at the twelve argument
  buffers.  The line is cut into stretches (the two edge rows; the encoder; each "weight" step; each aggregation; each
  "bias, rectifier" step; the decoder's dense layers; the log-softmax).  After a stretch each buffer it wrote holds its
  operation's function of the buffers read, every other buffer what it held before; so, stretch by stretch, each live
  buffer holds its stage value of the arguments.
-/
import proofs.«165432_j22093311771370_1_alg».proof.Proof.PRunReferenceIdeal
import proofs.«165432_j22093311771370_1_alg».proof.Proof.PReadReferenceIdeal
import Idealize.ShloMosaic.Lib.StableHlo.Run
import Idealize.ShloMosaic.Lib.Pipeline.Frame

noncomputable section

namespace Cert.ReferenceIdeal.Stage

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The line, cut into ten stretches -/

/-- Stretch 0: the two edge rows. -/
abbrev s0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000 ]

/-- Stretch 1: the encoder. -/
abbrev s1 : List (HloOp τ sig (Elt F)) :=
  [ binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v7) (TRef.of (T := ⟨S100000x256, .f32⟩) main_call0_v0) (TRef.of (T := ⟨S100000x256, .f32⟩) main_v8) maximumf,
    binary main_v8 main_arg4 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)) ]

/-- Stretch 2: the first layer's weight. -/
abbrev s2 : List (HloOp τ sig (Elt F)) :=
  [ unary main_arg6 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    binary main_v12 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stretch 3: the first aggregation. -/
abbrev s3 : List (HloOp τ sig (Elt F)) :=
  [ nullary main_c (constantI S_ 32 0#32),
    unary main_c main_v16 (broadcastInDim S1200000 ![] bcast_S_S1200000 : (⟨S_, .i32⟩ : BufTy).Contents (Elt F) → (⟨S1200000, .i32⟩ : BufTy).Contents (Elt F)),
    binary main_v1 main_v16 main_v17 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v18 (broadcastInDim S1200000 ![] bcast_S_S1200000 : (⟨S_, .i32⟩ : BufTy).Contents (Elt F) → (⟨S1200000, .i32⟩ : BufTy).Contents (Elt F)),
    binary main_v1 main_v18 main_v19 (addi : (⟨S1200000, .i32⟩ : BufTy).Contents (Elt F) → (⟨S1200000, .i32⟩ : BufTy).Contents (Elt F) → (⟨S1200000, .i32⟩ : BufTy).Contents (Elt F)),
    ternary main_v17 main_v19 main_v1 main_v20 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v20 main_v21 (broadcastInDim S1200000x1 ![0] bcast_S1200000_S1200000x1_0 : (⟨S1200000, .i32⟩ : BufTy).Contents (Elt F) → (⟨S1200000x1, .i32⟩ : BufTy).Contents (Elt F)),
    binary main_v15 main_v21 main_v22 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v23 (broadcastInDim S100000x64 ![] bcast_S_S100000x64 : (⟨S_, .f32⟩ : BufTy).Contents (Elt F) → (⟨S100000x64, .f32⟩ : BufTy).Contents (Elt F)),
    unary main_v3 main_v24 (broadcastInDim S1200000x1 ![0] bcast_S1200000_S1200000x1_0 : (⟨S1200000, .i32⟩ : BufTy).Contents (Elt F) → (⟨S1200000x1, .i32⟩ : BufTy).Contents (Elt F)),
    ternary main_v23 main_v24 main_v22 main_v25 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- Stretch 4: bias, rectifier and the second layer's weight. -/
abbrev s4 : List (HloOp τ sig (Elt F)) :=
  [ unary main_arg7 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v25 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v30) (TRef.of (T := ⟨S100000x64, .f32⟩) main_call1_v0) (TRef.of (T := ⟨S100000x64, .f32⟩) main_v31) maximumf,
    unary main_arg6 main_v32 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v32 main_v33 rfl shapeCasts_S1x64x64_S64x64,
    binary main_v31 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stretch 5: the second aggregation. -/
abbrev s5 : List (HloOp τ sig (Elt F)) :=
  [ nullary main_c_1 (constantI S_ 32 0#32),
    unary main_c_1 main_v35 (broadcastInDim S1200000 ![] bcast_S_S1200000 : (⟨S_, .i32⟩ : BufTy).Contents (Elt F) → (⟨S1200000, .i32⟩ : BufTy).Contents (Elt F)),
    binary main_v1 main_v35 main_v36 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v37 (broadcastInDim S1200000 ![] bcast_S_S1200000 : (⟨S_, .i32⟩ : BufTy).Contents (Elt F) → (⟨S1200000, .i32⟩ : BufTy).Contents (Elt F)),
    binary main_v1 main_v37 main_v38 (addi : (⟨S1200000, .i32⟩ : BufTy).Contents (Elt F) → (⟨S1200000, .i32⟩ : BufTy).Contents (Elt F) → (⟨S1200000, .i32⟩ : BufTy).Contents (Elt F)),
    ternary main_v36 main_v38 main_v1 main_v39 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v39 main_v40 (broadcastInDim S1200000x1 ![0] bcast_S1200000_S1200000x1_0 : (⟨S1200000, .i32⟩ : BufTy).Contents (Elt F) → (⟨S1200000x1, .i32⟩ : BufTy).Contents (Elt F)),
    binary main_v34 main_v40 main_v41 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_3 (constant S_ .f32 0x00000000#32),
    unary main_cst_3 main_v42 (broadcastInDim S100000x64 ![] bcast_S_S100000x64 : (⟨S_, .f32⟩ : BufTy).Contents (Elt F) → (⟨S100000x64, .f32⟩ : BufTy).Contents (Elt F)),
    unary main_v3 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- Stretch 6: bias, rectifier and the third layer's weight. -/
abbrev s6 : List (HloOp τ sig (Elt F)) :=
  [ unary main_arg7 main_v45 ((extractStridedSlice S1x64 ![1, 0] · slices_S3x64_S1x64_1_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v49) (TRef.of (T := ⟨S100000x64, .f32⟩) main_call2_v0) (TRef.of (T := ⟨S100000x64, .f32⟩) main_v50) maximumf,
    unary main_arg6 main_v51 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stretch 7: the third aggregation. -/
abbrev s7 : List (HloOp τ sig (Elt F)) :=
  [ nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_6 (constant S_ .f32 0x00000000#32),
    unary main_cst_6 main_v61 (broadcastInDim S100000x64 ![] bcast_S_S100000x64 : (⟨S_, .f32⟩ : BufTy).Contents (Elt F) → (⟨S100000x64, .f32⟩ : BufTy).Contents (Elt F)),
    unary main_v3 main_v62 (broadcastInDim S1200000x1 ![0] bcast_S1200000_S1200000x1_0 : (⟨S1200000, .i32⟩ : BufTy).Contents (Elt F) → (⟨S1200000x1, .i32⟩ : BufTy).Contents (Elt F)),
    ternary main_v61 main_v62 main_v60 main_v63 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- Stretch 8: bias, rectifier and the decoder's two dense layers. -/
abbrev s8 : List (HloOp τ sig (Elt F)) :=
  [ unary main_arg7 main_v64 ((extractStridedSlice S1x64 ![2, 0] · slices_S3x64_S1x64_2_0) : (⟨S3x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v68) (TRef.of (T := ⟨S100000x64, .f32⟩) main_call3_v0) (TRef.of (T := ⟨S100000x64, .f32⟩) main_v69) maximumf,
    binary main_v69 main_arg8 main_v70 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg9 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v73) (TRef.of (T := ⟨S100000x256, .f32⟩) main_call4_v0) (TRef.of (T := ⟨S100000x256, .f32⟩) main_v74) maximumf,
    binary main_v74 main_arg10 main_v75 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg11 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)) ]

/-- Stretch 9: the log-softmax. -/
abbrev s9 : List (HloOp τ sig (Elt F)) :=
  [ TRef.nullary (TRef.of (T := ⟨S_, .f32⟩) main_call5_cst) (constant S_ .f32 0xFF800000#32),
    TRef.binary (TRef.of (T := ⟨S100000x40, .f32⟩) main_v78) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v78) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v79) subf ]

/-- The line is its stretches in a row. -/
theorem ops_eq : (ops : List (HloOp τ sig (Elt F))) = s0 ++ (s1 ++ (s2 ++ (s3 ++ (s4 ++ (s5 ++ (s6 ++ (s7 ++ (s8 ++ s9)))))))) := rfl

/-- So the contents after the line are the contents after each stretch in turn. -/
theorem after_ops_eq (V : Valuation τ sig (Elt F)) :
    after ops V = after s9 (after s8 (after s7 (after s6 (after s5 (after s4 (after s3 (after s2 (after s1 (after s0 V))))))))) := by
  rw [ops_eq]; simp only [after_append]

/-! ## What a stretch does not write it keeps -/

/-- `V'` holds at every buffer of the list `L` what `V` holds there. -/
def Keeps (L : List (Ref sig .tc)) (V V' : Valuation τ sig (Elt F)) : Prop :=
  ∀ r ∈ L, V' (Proc.devRef .tc r) = V (Proc.devRef .tc r)

theorem Keeps.trans {L : List (Ref sig .tc)} {V V' V'' : Valuation τ sig (Elt F)} (h : Keeps L V V') (h' : Keeps L V' V'') :
    Keeps L V V'' := fun r hr => (h' r hr).trans (h r hr)

/-- A line of operations that writes only buffers of `W` keeps every list of buffers disjoint from `W`. -/
theorem keeps_after {L W : List (Ref sig .tc)} (l : List (HloOp τ sig (Elt F)))
    (hW : l.Forall fun op => op.writes ⊆ (W.map (Proc.devRef (τ := τ) .tc)).toFinset) (hd : ∀ r ∈ L, r ∉ W)
    (V : Valuation τ sig (Elt F)) : Keeps L V (after l V) :=
  fun r hr => after_of_writes_sub l V hW (hd r hr)

/-- The twelve argument buffers. -/
abbrev argL : List (Ref sig .tc) :=
  [main_arg0, main_arg1, main_arg2, main_arg3, main_arg4, main_arg5, main_arg6, main_arg7, main_arg8, main_arg9, main_arg10, main_arg11]
/-- The two edge rows, read by every aggregation. -/
abbrev rowL : List (Ref sig .tc) := [main_v1, main_v3]

/-- The buffers stretch 0 writes. -/
abbrev s0_W : List (Ref sig .tc) := [main_v0, main_v1, main_v2, main_v3]
theorem s0_writes : (s0 : List (HloOp τ sig (Elt F))).Forall fun op => op.writes ⊆ (s0_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 1 writes. -/
abbrev s1_W : List (Ref sig .tc) := [main_v4, main_v5, main_v6, main_v7, main_call0_cst, main_call0_v0, main_v8, main_v9, main_v10, main_v11, main_v12]
theorem s1_writes : (s1 : List (HloOp τ sig (Elt F))).Forall fun op => op.writes ⊆ (s1_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 2 writes. -/
abbrev s2_W : List (Ref sig .tc) := [main_v13, main_v14, main_v15]
theorem s2_writes : (s2 : List (HloOp τ sig (Elt F))).Forall fun op => op.writes ⊆ (s2_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 3 writes. -/
abbrev s3_W : List (Ref sig .tc) := [main_c, main_v16, main_v17, main_c_0, main_v18, main_v19, main_v20, main_v21, main_v22, main_cst, main_v23, main_v24, main_v25]
theorem s3_writes : (s3 : List (HloOp τ sig (Elt F))).Forall fun op => op.writes ⊆ (s3_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 4 writes. -/
abbrev s4_W : List (Ref sig .tc) := [main_v26, main_v27, main_v28, main_v29, main_v30, main_call1_cst, main_call1_v0, main_v31, main_v32, main_v33, main_v34]
theorem s4_writes : (s4 : List (HloOp τ sig (Elt F))).Forall fun op => op.writes ⊆ (s4_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 5 writes. -/
abbrev s5_W : List (Ref sig .tc) := [main_c_1, main_v35, main_v36, main_c_2, main_v37, main_v38, main_v39, main_v40, main_v41, main_cst_3, main_v42, main_v43, main_v44]
theorem s5_writes : (s5 : List (HloOp τ sig (Elt F))).Forall fun op => op.writes ⊆ (s5_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 6 writes. -/
abbrev s6_W : List (Ref sig .tc) := [main_v45, main_v46, main_v47, main_v48, main_v49, main_call2_cst, main_call2_v0, main_v50, main_v51, main_v52, main_v53]
theorem s6_writes : (s6 : List (HloOp τ sig (Elt F))).Forall fun op => op.writes ⊆ (s6_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 7 writes. -/
abbrev s7_W : List (Ref sig .tc) := [main_c_4, main_v54, main_v55, main_c_5, main_v56, main_v57, main_v58, main_v59, main_v60, main_cst_6, main_v61, main_v62, main_v63]
theorem s7_writes : (s7 : List (HloOp τ sig (Elt F))).Forall fun op => op.writes ⊆ (s7_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 8 writes. -/
abbrev s8_W : List (Ref sig .tc) := [main_v64, main_v65, main_v66, main_v67, main_v68, main_call3_cst, main_call3_v0, main_v69, main_v70, main_v71, main_v72, main_v73, main_call4_cst, main_call4_v0, main_v74, main_v75, main_v76, main_v77, main_v78]
theorem s8_writes : (s8 : List (HloOp τ sig (Elt F))).Forall fun op => op.writes ⊆ (s8_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- The buffers stretch 9 writes. -/
abbrev s9_W : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v79]
theorem s9_writes : (s9 : List (HloOp τ sig (Elt F))).Forall fun op => op.writes ⊆ (s9_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-! ## The invariant: the arguments as at the start, the two edge rows at their stage values -/

abbrev a0 (V : Valuation τ sig (Elt F)) : (⟨S100000x128, .f32⟩ : BufTy).Contents (Elt F) := V (Proc.devRef .tc main_arg0)
abbrev a1 (V : Valuation τ sig (Elt F)) : (⟨S2x1200000, .i32⟩ : BufTy).Contents (Elt F) := V (Proc.devRef .tc main_arg1)
abbrev a2 (V : Valuation τ sig (Elt F)) : (⟨S128x256, .f32⟩ : BufTy).Contents (Elt F) := V (Proc.devRef .tc main_arg2)
abbrev a3 (V : Valuation τ sig (Elt F)) : (⟨S256, .f32⟩ : BufTy).Contents (Elt F) := V (Proc.devRef .tc main_arg3)
abbrev a4 (V : Valuation τ sig (Elt F)) : (⟨S256x64, .f32⟩ : BufTy).Contents (Elt F) := V (Proc.devRef .tc main_arg4)
abbrev a5 (V : Valuation τ sig (Elt F)) : (⟨S64, .f32⟩ : BufTy).Contents (Elt F) := V (Proc.devRef .tc main_arg5)
abbrev a6 (V : Valuation τ sig (Elt F)) : (⟨S3x64x64, .f32⟩ : BufTy).Contents (Elt F) := V (Proc.devRef .tc main_arg6)
abbrev a7 (V : Valuation τ sig (Elt F)) : (⟨S3x64, .f32⟩ : BufTy).Contents (Elt F) := V (Proc.devRef .tc main_arg7)
abbrev a8 (V : Valuation τ sig (Elt F)) : (⟨S64x256, .f32⟩ : BufTy).Contents (Elt F) := V (Proc.devRef .tc main_arg8)
abbrev a9 (V : Valuation τ sig (Elt F)) : (⟨S256, .f32⟩ : BufTy).Contents (Elt F) := V (Proc.devRef .tc main_arg9)
abbrev a10 (V : Valuation τ sig (Elt F)) : (⟨S256x40, .f32⟩ : BufTy).Contents (Elt F) := V (Proc.devRef .tc main_arg10)
abbrev a11 (V : Valuation τ sig (Elt F)) : (⟨S40, .f32⟩ : BufTy).Contents (Elt F) := V (Proc.devRef .tc main_arg11)

/-- Contents `U` reached from `V`: the argument buffers hold what they held in `V`, the two edge-row buffers their stage values. -/
structure Inv (V U : Valuation τ sig (Elt F)) : Prop where
  args : Keeps argL V U
  v1 : U (Proc.devRef .tc main_v1) = val_main_v1 (F := F) (a1 V)
  v3 : U (Proc.devRef .tc main_v3) = val_main_v3 (F := F) (a1 V)

/-- A line that writes none of the arguments and neither edge row preserves the invariant. -/
theorem Inv.next {V U : Valuation τ sig (Elt F)} (h : Inv V U) {W : List (Ref sig .tc)} (l : List (HloOp τ sig (Elt F)))
    (hW : l.Forall fun op => op.writes ⊆ (W.map (Proc.devRef (τ := τ) .tc)).toFinset) (hd : ∀ r ∈ argL ++ rowL, r ∉ W) :
    Inv V (after l U) where
  args := h.args.trans (keeps_after l hW (fun r hr => hd r (List.mem_append_left _ hr)) U)
  v1 := (after_of_writes_sub l U hW (hd main_v1 (by decide))).trans h.v1
  v3 := (after_of_writes_sub l U hW (hd main_v3 (by decide))).trans h.v3

/-! ## Reading a buffer at the type of the value it holds -/

section Typed

variable {Val : EltTy → Type} {T Tx Ta Tb Ty : BufTy}

/-- What the buffer of a typed reference holds, at the value's type. -/
def rd (x : TRef sig T) (W : Valuation τ sig Val) : T.Contents Val := x.ofBuf (W (Proc.devRef .tc x.ref))

/-- Moving a value to the buffer's type and back gives the value. -/
theorem ofBuf_toBuf (x : TRef sig T) (v : T.Contents Val) : x.ofBuf (x.toBuf v) = v := by
  obtain ⟨r, h, h1, h2⟩ := x
  subst h
  rfl

theorem rd_nullary_self (y : TRef sig Ty) (v : Ty.Contents Val) (W : Valuation τ sig Val) :
    rd y ((TRef.nullary (τ := τ) y v).result W) = v :=
  (congrArg y.ofBuf (nullary_result y.ref (y.toBuf v) y.dev W)).trans (ofBuf_toBuf y v)

theorem rd_unary_self (x : TRef sig Tx) (y : TRef sig Ty) (f : Tx.Contents Val → Ty.Contents Val) (W : Valuation τ sig Val) :
    rd y ((TRef.unary (τ := τ) x y f).result W) = f (rd x W) :=
  (congrArg y.ofBuf (unary_result x.ref y.ref (fun u => y.toBuf (f (x.ofBuf u))) x.dev y.dev W)).trans (ofBuf_toBuf y _)

theorem rd_binary_self (a : TRef sig Ta) (b : TRef sig Tb) (y : TRef sig Ty) (f : Ta.Contents Val → Tb.Contents Val → Ty.Contents Val)
    (W : Valuation τ sig Val) :
    rd y ((TRef.binary (τ := τ) a b y f).result W) = f (rd a W) (rd b W) :=
  (congrArg y.ofBuf (binary_result a.ref b.ref y.ref (fun u v => y.toBuf (f (a.ofBuf u) (b.ofBuf v))) a.dev b.dev y.dev W)).trans
    (ofBuf_toBuf y _)

theorem rd_nullary_ne (y : TRef sig Ty) (v : Ty.Contents Val) (z : TRef sig T) (W : Valuation τ sig Val) (h : z.ref ≠ y.ref) :
    rd z ((TRef.nullary (τ := τ) y v).result W) = rd z W :=
  congrArg z.ofBuf (nullary_result_ne y.ref (y.toBuf v) y.dev W h)

theorem rd_unary_ne (x : TRef sig Tx) (y : TRef sig Ty) (f : Tx.Contents Val → Ty.Contents Val) (z : TRef sig T)
    (W : Valuation τ sig Val) (h : z.ref ≠ y.ref) :
    rd z ((TRef.unary (τ := τ) x y f).result W) = rd z W :=
  congrArg z.ofBuf (unary_result_ne x.ref y.ref (fun u => y.toBuf (f (x.ofBuf u))) x.dev y.dev W h)

theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((TRef.binary (τ := τ) a b y f).result W) = rd z W :=
  congrArg z.ofBuf (binary_result_ne a.ref b.ref y.ref (fun u v => y.toBuf (f (a.ofBuf u) (b.ofBuf v))) a.dev b.dev y.dev W h)

end Typed

/-! ## The stretches, one by one -/

/-- After the first stretch the invariant holds. -/
theorem inv0 (V : Valuation τ sig (Elt F)) : Inv V (after s0 V) where
  args := keeps_after s0 s0_writes (by decide) V
  v1 := by after_results; rfl
  v3 := by after_results; rfl

/-- The encoder. -/
theorem step1 (V U : Valuation τ sig (Elt F)) (h : Inv V U) :
    after s1 U (Proc.devRef .tc main_v12) = val_main_v12 (F := F) (a0 V) (a2 V) (a3 V) (a4 V) (a5 V) := by
  after_results
  rw [h.args main_arg0 (by decide), h.args main_arg2 (by decide), h.args main_arg3 (by decide), h.args main_arg4 (by decide), h.args main_arg5 (by decide)]
  rfl

/-- The first layer's weight. -/
theorem step2 (V U : Valuation τ sig (Elt F)) (h : Inv V U) (h12 : U (Proc.devRef .tc main_v12) = val_main_v12 (F := F) (a0 V) (a2 V) (a3 V) (a4 V) (a5 V)) :
    after s2 U (Proc.devRef .tc main_v15) = val_main_v15 (F := F) (a0 V) (a2 V) (a3 V) (a4 V) (a5 V) (a6 V) := by
  after_results
  rw [h.args main_arg6 (by decide), h12]
  rfl

/-- The first aggregation. -/
theorem step3 (V U : Valuation τ sig (Elt F)) (h : Inv V U) (h15 : U (Proc.devRef .tc main_v15) = val_main_v15 (F := F) (a0 V) (a2 V) (a3 V) (a4 V) (a5 V) (a6 V)) :
    after s3 U (Proc.devRef .tc main_v25) = val_main_v25 (F := F) (a0 V) (a1 V) (a2 V) (a3 V) (a4 V) (a5 V) (a6 V) := by
  after_results
  rw [h.v1, h.v3, h15]
  rfl

/-- Bias, rectifier and the second layer's weight. -/
theorem step4 (V U : Valuation τ sig (Elt F)) (h : Inv V U) (h25 : U (Proc.devRef .tc main_v25) = val_main_v25 (F := F) (a0 V) (a1 V) (a2 V) (a3 V) (a4 V) (a5 V) (a6 V)) :
    after s4 U (Proc.devRef .tc main_v34) = val_main_v34 (F := F) (a0 V) (a1 V) (a2 V) (a3 V) (a4 V) (a5 V) (a6 V) (a7 V) := by
  after_results
  rw [h.args main_arg7 (by decide), h.args main_arg6 (by decide), h25]
  rfl

/-- The second aggregation. -/
theorem step5 (V U : Valuation τ sig (Elt F)) (h : Inv V U) (h34 : U (Proc.devRef .tc main_v34) = val_main_v34 (F := F) (a0 V) (a1 V) (a2 V) (a3 V) (a4 V) (a5 V) (a6 V) (a7 V)) :
    after s5 U (Proc.devRef .tc main_v44) = val_main_v44 (F := F) (a0 V) (a1 V) (a2 V) (a3 V) (a4 V) (a5 V) (a6 V) (a7 V) := by
  after_results
  rw [h.v1, h.v3, h34]
  rfl

/-- Bias, rectifier and the third layer's weight. -/
theorem step6 (V U : Valuation τ sig (Elt F)) (h : Inv V U) (h44 : U (Proc.devRef .tc main_v44) = val_main_v44 (F := F) (a0 V) (a1 V) (a2 V) (a3 V) (a4 V) (a5 V) (a6 V) (a7 V)) :
    after s6 U (Proc.devRef .tc main_v53) = val_main_v53 (F := F) (a0 V) (a1 V) (a2 V) (a3 V) (a4 V) (a5 V) (a6 V) (a7 V) := by
  after_results
  rw [h.args main_arg7 (by decide), h.args main_arg6 (by decide), h44]
  rfl

/-- The third aggregation. -/
theorem step7 (V U : Valuation τ sig (Elt F)) (h : Inv V U) (h53 : U (Proc.devRef .tc main_v53) = val_main_v53 (F := F) (a0 V) (a1 V) (a2 V) (a3 V) (a4 V) (a5 V) (a6 V) (a7 V)) :
    after s7 U (Proc.devRef .tc main_v63) = val_main_v63 (F := F) (a0 V) (a1 V) (a2 V) (a3 V) (a4 V) (a5 V) (a6 V) (a7 V) := by
  after_results_simp
  rw [h.v1, h.v3, h53]
  rfl

/-- Bias, rectifier and the decoder's two dense layers. -/
theorem step8 (V U : Valuation τ sig (Elt F)) (h : Inv V U) (h63 : U (Proc.devRef .tc main_v63) = val_main_v63 (F := F) (a0 V) (a1 V) (a2 V) (a3 V) (a4 V) (a5 V) (a6 V) (a7 V)) :
    after s8 U (Proc.devRef .tc main_v78) = val_main_v78 (F := F) (a0 V) (a1 V) (a2 V) (a3 V) (a4 V) (a5 V) (a6 V) (a7 V) (a8 V) (a9 V) (a10 V) (a11 V) := by
  after_results_simp
  rw [h.args main_arg7 (by decide), h.args main_arg8 (by decide), h.args main_arg9 (by decide), h.args main_arg10 (by decide), h.args main_arg11 (by decide), h63]
  rfl

/-- The log-softmax. -/
theorem step9 (V U : Valuation τ sig (Elt F)) (h : Inv V U) (h78 : U (Proc.devRef .tc main_v78) = val_main_v78 (F := F) (a0 V) (a1 V) (a2 V) (a3 V) (a4 V) (a5 V) (a6 V) (a7 V) (a8 V) (a9 V) (a10 V) (a11 V)) :
    after s9 U (Proc.devRef .tc main_v79) = val_main_v79 (F := F) (a0 V) (a1 V) (a2 V) (a3 V) (a4 V) (a5 V) (a6 V) (a7 V) (a8 V) (a9 V) (a10 V) (a11 V) := by
  have hout : ∀ W : Valuation τ sig (Elt F),
      W (Proc.devRef .tc main_v79) = rd (TRef.of (T := ⟨S100000x40, .f32⟩) main_v79) W := fun W => rfl
  have hin : ∀ W : Valuation τ sig (Elt F),
      rd (TRef.of (T := ⟨S100000x40, .f32⟩) main_v78) W = W (Proc.devRef .tc main_v78) := fun W => rfl
  refine (hout _).trans ?_
  simp only [after_cons, after_nil]
  repeat (first
    | rw [rd_nullary_self] | rw [rd_unary_self] | rw [rd_binary_self]
    | (rw [rd_nullary_ne]; rotate_left; decide)
    | (rw [rd_unary_ne]; rotate_left; decide)
    | (rw [rd_binary_ne]; rotate_left; decide))
  rw [hin, h78]
  rfl

/-! ## The whole line -/

/-- After the whole line, from any contents `V` and for any float values, the result buffer holds the last stage's value of `V` at the arguments. -/
theorem after_ops_gen (V : Valuation τ sig (Elt F)) :
    after ops V (Proc.devRef .tc main_v79) = val_main_v79 (F := F) (a0 V) (a1 V) (a2 V) (a3 V) (a4 V) (a5 V) (a6 V) (a7 V) (a8 V) (a9 V) (a10 V) (a11 V) := by
  rw [after_ops_eq]
  have i1 := inv0 V
  have c1 := step1 V _ i1
  have i2 := i1.next s1 s1_writes (by decide)
  have c2 := step2 V _ i2 c1
  have i3 := i2.next s2 s2_writes (by decide)
  have c3 := step3 V _ i3 c2
  have i4 := i3.next s3 s3_writes (by decide)
  have c4 := step4 V _ i4 c3
  have i5 := i4.next s4 s4_writes (by decide)
  have c5 := step5 V _ i5 c4
  have i6 := i5.next s5 s5_writes (by decide)
  have c6 := step6 V _ i6 c5
  have i7 := i6.next s6 s6_writes (by decide)
  have c7 := step7 V _ i7 c6
  have i8 := i7.next s7 s7_writes (by decide)
  have c8 := step8 V _ i8 c7
  have i9 := i8.next s8 s8_writes (by decide)
  have c9 := step9 V _ i9 c8
  exact c9

/-- After the whole line, from any contents `V`, the result buffer holds the last stage's value of `V` at the arguments. -/
theorem after_ops (V : Valuation τ sig (Elt Ideal)) :
    after (ops (F := Ideal)) V (Proc.devRef .tc main_v79)
      = val_main_v79 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  after_ops_gen V

end Cert.ReferenceIdeal.Stage

end
-- ==== Proof.RHidden.lean ====
/-
  The reference program's hidden layers, one operation at a time: the encoder's two dense layers are matrix products
  plus a row bias with a rectifier between them, each graph convolution is "weight, aggregate" followed by "bias,
  rectifier", and the aggregation is the same host operations as the kernel program's (`agg`, never opened).  So the
  last aggregation's value is the network's hidden part (Agg.lean) of the arguments.
-/
import proofs.«165432_j22093311771370_1_alg».proof.Proof.PReadReferenceIdeal
import proofs.«165432_j22093311771370_1_alg».proof.Proof.Agg
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stage

open Cert.ReferenceIdeal Cert.ReferenceIdeal.Gen Cert.ReferenceIdeal.Read Cert.Gcn Idealize.ShloMosaic Idealize.ShloMosaic.ValueIdx

namespace Hidden

/-- A dense layer of the reference (`100000 × 128` by `128 × 256`) is the matrix product: the operand indices at output `(p, q)` and
    contraction index `l` are `(p, l)` and `(l, q)`. -/
theorem dot_a (a : FVec Ideal S100000x128 .f32) (b : FVec Ideal S128x256 .f32) :
    Host.dotGeneral (F := Ideal) dot_S100000x128_S128x256_S100000x256_1_0_0_1_n_n none a b = mm a b := by
  funext y
  obtain ⟨p, q, rfl⟩ : ∃ (p : Fin 100000) (q : Fin 256), y = ix2 p q := ⟨y 0, y 1, eq_ix2 y⟩
  simp only [Host.dotGeneral]
  rw [Ideal.dotGeneral_apply, ← Equiv.sum_comp (ValueIdx.contrEquiv1 dot_S100000x128_S128x256_S100000x256_1_0_0_1_n_n 128 rfl rfl).symm]
  show _ = ∑ l : Fin 128, a (ix2 p l) * b (ix2 l q)
  refine Finset.sum_congr rfl fun l _ => ?_
  have hl := ValueIdx.contrEquiv1_symm_val dot_S100000x128_S128x256_S100000x256_1_0_0_1_n_n 128 rfl rfl l
  have el : dot_S100000x128_S128x256_S100000x256_1_0_0_1_n_n.lhsIdx (ix2 p q) ((ValueIdx.contrEquiv1 dot_S100000x128_S128x256_S100000x256_1_0_0_1_n_n 128 rfl rfl).symm l) = ix2 p l := funext fun ax => Fin.ext (by
    match ax with
    | ⟨0, _⟩ => exact lhs_main_v4_0 _ _
    | ⟨1, _⟩ => exact (lhs_main_v4_1 _ _).trans hl)
  have er : dot_S100000x128_S128x256_S100000x256_1_0_0_1_n_n.rhsIdx (ix2 p q) ((ValueIdx.contrEquiv1 dot_S100000x128_S128x256_S100000x256_1_0_0_1_n_n 128 rfl rfl).symm l) = ix2 l q := funext fun ax => Fin.ext (by
    match ax with
    | ⟨0, _⟩ => exact (rhs_main_v4_0 _ _).trans hl
    | ⟨1, _⟩ => exact rhs_main_v4_1 _ _)
  rw [el, er]

/-- A dense layer of the reference (`100000 × 256` by `256 × 64`) is the matrix product: the operand indices at output `(p, q)` and
    contraction index `l` are `(p, l)` and `(l, q)`. -/
theorem dot_b (a : FVec Ideal S100000x256 .f32) (b : FVec Ideal S256x64 .f32) :
    Host.dotGeneral (F := Ideal) dot_S100000x256_S256x64_S100000x64_1_0_0_1_n_n none a b = mm a b := by
  funext y
  obtain ⟨p, q, rfl⟩ : ∃ (p : Fin 100000) (q : Fin 64), y = ix2 p q := ⟨y 0, y 1, eq_ix2 y⟩
  simp only [Host.dotGeneral]
  rw [Ideal.dotGeneral_apply, ← Equiv.sum_comp (ValueIdx.contrEquiv1 dot_S100000x256_S256x64_S100000x64_1_0_0_1_n_n 256 rfl rfl).symm]
  show _ = ∑ l : Fin 256, a (ix2 p l) * b (ix2 l q)
  refine Finset.sum_congr rfl fun l _ => ?_
  have hl := ValueIdx.contrEquiv1_symm_val dot_S100000x256_S256x64_S100000x64_1_0_0_1_n_n 256 rfl rfl l
  have el : dot_S100000x256_S256x64_S100000x64_1_0_0_1_n_n.lhsIdx (ix2 p q) ((ValueIdx.contrEquiv1 dot_S100000x256_S256x64_S100000x64_1_0_0_1_n_n 256 rfl rfl).symm l) = ix2 p l := funext fun ax => Fin.ext (by
    match ax with
    | ⟨0, _⟩ => exact lhs_main_v9_0 _ _
    | ⟨1, _⟩ => exact (lhs_main_v9_1 _ _).trans hl)
  have er : dot_S100000x256_S256x64_S100000x64_1_0_0_1_n_n.rhsIdx (ix2 p q) ((ValueIdx.contrEquiv1 dot_S100000x256_S256x64_S100000x64_1_0_0_1_n_n 256 rfl rfl).symm l) = ix2 l q := funext fun ax => Fin.ext (by
    match ax with
    | ⟨0, _⟩ => exact (rhs_main_v9_0 _ _).trans hl
    | ⟨1, _⟩ => exact rhs_main_v9_1 _ _)
  rw [el, er]

/-- A dense layer of the reference (`100000 × 64` by `64 × 64`) is the matrix product: the operand indices at output `(p, q)` and
    contraction index `l` are `(p, l)` and `(l, q)`. -/
theorem dot_c (a : FVec Ideal S100000x64 .f32) (b : FVec Ideal S64x64 .f32) :
    Host.dotGeneral (F := Ideal) dot_S100000x64_S64x64_S100000x64_1_0_0_1_n_n none a b = mm a b := by
  funext y
  obtain ⟨p, q, rfl⟩ : ∃ (p : Fin 100000) (q : Fin 64), y = ix2 p q := ⟨y 0, y 1, eq_ix2 y⟩
  simp only [Host.dotGeneral]
  rw [Ideal.dotGeneral_apply, ← Equiv.sum_comp (ValueIdx.contrEquiv1 dot_S100000x64_S64x64_S100000x64_1_0_0_1_n_n 64 rfl rfl).symm]
  show _ = ∑ l : Fin 64, a (ix2 p l) * b (ix2 l q)
  refine Finset.sum_congr rfl fun l _ => ?_
  have hl := ValueIdx.contrEquiv1_symm_val dot_S100000x64_S64x64_S100000x64_1_0_0_1_n_n 64 rfl rfl l
  have el : dot_S100000x64_S64x64_S100000x64_1_0_0_1_n_n.lhsIdx (ix2 p q) ((ValueIdx.contrEquiv1 dot_S100000x64_S64x64_S100000x64_1_0_0_1_n_n 64 rfl rfl).symm l) = ix2 p l := funext fun ax => Fin.ext (by
    match ax with
    | ⟨0, _⟩ => exact lhs_main_v15_0 _ _
    | ⟨1, _⟩ => exact (lhs_main_v15_1 _ _).trans hl)
  have er : dot_S100000x64_S64x64_S100000x64_1_0_0_1_n_n.rhsIdx (ix2 p q) ((ValueIdx.contrEquiv1 dot_S100000x64_S64x64_S100000x64_1_0_0_1_n_n 64 rfl rfl).symm l) = ix2 l q := funext fun ax => Fin.ext (by
    match ax with
    | ⟨0, _⟩ => exact (rhs_main_v15_0 _ _).trans hl
    | ⟨1, _⟩ => exact rhs_main_v15_1 _ _)
  rw [el, er]

/-- An aggregation of the reference is the aggregation of the specification: the same host operations on the same edge list. -/
theorem agg_a (x1 : (⟨S2x1200000, .i32⟩ : BufTy).Contents (Elt Ideal)) (h : FVec Ideal S100000x64 .f32) :
    Host.scatterAdd (F := Ideal) scatter_S100000x64_S1200000x1_S1200000x64_1_0_0_1 (val_main_v23 (F := Ideal)) (val_main_v24 (F := Ideal) x1)
      (Host.gather gather_S100000x64_S1200000x1_S1200000x64_1_0_n_n_0_1_164 h (val_main_v21 (F := Ideal) x1)) = agg x1 h := by
  unfold agg srcIdx dstIdx edgeRow0 edgeRow1 val_main_v24 val_main_v23 val_main_v21 val_main_v20 val_main_v19 val_main_v18 val_main_v17 val_main_v16 val_main_c val_main_c_0 val_main_cst val_main_v3 val_main_v2 val_main_v1 val_main_v0
  rfl

/-- An aggregation of the reference is the aggregation of the specification: the same host operations on the same edge list. -/
theorem agg_b (x1 : (⟨S2x1200000, .i32⟩ : BufTy).Contents (Elt Ideal)) (h : FVec Ideal S100000x64 .f32) :
    Host.scatterAdd (F := Ideal) scatter_S100000x64_S1200000x1_S1200000x64_1_0_0_1 (val_main_v42 (F := Ideal)) (val_main_v43 (F := Ideal) x1)
      (Host.gather gather_S100000x64_S1200000x1_S1200000x64_1_0_n_n_0_1_164 h (val_main_v40 (F := Ideal) x1)) = agg x1 h := by
  unfold agg srcIdx dstIdx edgeRow0 edgeRow1 val_main_v43 val_main_v42 val_main_v40 val_main_v39 val_main_v38 val_main_v37 val_main_v36 val_main_v35 val_main_c_1 val_main_c_2 val_main_cst_3 val_main_v3 val_main_v2 val_main_v1 val_main_v0
  rfl

/-- An aggregation of the reference is the aggregation of the specification: the same host operations on the same edge list. -/
theorem agg_c (x1 : (⟨S2x1200000, .i32⟩ : BufTy).Contents (Elt Ideal)) (h : FVec Ideal S100000x64 .f32) :
    Host.scatterAdd (F := Ideal) scatter_S100000x64_S1200000x1_S1200000x64_1_0_0_1 (val_main_v61 (F := Ideal)) (val_main_v62 (F := Ideal) x1)
      (Host.gather gather_S100000x64_S1200000x1_S1200000x64_1_0_n_n_0_1_164 h (val_main_v59 (F := Ideal) x1)) = agg x1 h := by
  unfold agg srcIdx dstIdx edgeRow0 edgeRow1 val_main_v62 val_main_v61 val_main_v59 val_main_v58 val_main_v57 val_main_v56 val_main_v55 val_main_v54 val_main_c_4 val_main_c_5 val_main_cst_6 val_main_v3 val_main_v2 val_main_v1 val_main_v0
  rfl

/-- A bias vector broadcast to a row and then down the rows, added: entry `(p, q)` gains `b q`. -/
theorem bias_e0 (A : FVec Ideal S100000x256 .f32) (x3 : (⟨S256, .f32⟩ : BufTy).Contents (Elt Ideal)) :
    addf A (val_main_v6 (F := Ideal) x3) = addRow A x3 := by
  funext y
  obtain ⟨p, q, rfl⟩ : ∃ (p : Fin 100000) (q : Fin 256), y = ix2 p q := ⟨y 0, y 1, eq_ix2 y⟩
  show A (ix2 p q) + val_main_v6 (F := Ideal) x3 (ix2 p q) = A (ix2 p q) + x3 (ix1 q)
  rw [val_main_v6_apply, val_main_v5_apply]
  exact congrArg (fun t => A (ix2 p q) + x3 t) (funext fun ax => Fin.ext (by
    match ax with
    | ⟨0, _⟩ => rfl))

/-- A bias vector broadcast to a row and then down the rows, added: entry `(p, q)` gains `b q`. -/
theorem bias_e1 (A : FVec Ideal S100000x64 .f32) (x5 : (⟨S64, .f32⟩ : BufTy).Contents (Elt Ideal)) :
    addf A (val_main_v11 (F := Ideal) x5) = addRow A x5 := by
  funext y
  obtain ⟨p, q, rfl⟩ : ∃ (p : Fin 100000) (q : Fin 64), y = ix2 p q := ⟨y 0, y 1, eq_ix2 y⟩
  show A (ix2 p q) + val_main_v11 (F := Ideal) x5 (ix2 p q) = A (ix2 p q) + x5 (ix1 q)
  rw [val_main_v11_apply, val_main_v10_apply]
  exact congrArg (fun t => A (ix2 p q) + x5 t) (funext fun ax => Fin.ext (by
    match ax with
    | ⟨0, _⟩ => rfl))

/-- Row `0` of the stacked biases, sliced out, flattened, broadcast to a row and then down the rows, added: entry
    `(p, q)` gains `b (0, q)`. -/
theorem bias_0 (A : FVec Ideal S100000x64 .f32) (x7 : (⟨S3x64, .f32⟩ : BufTy).Contents (Elt Ideal)) :
    addf A (val_main_v29 (F := Ideal) x7) = addRow A (bsl 0 x7) := by
  funext y
  obtain ⟨p, q, rfl⟩ : ∃ (p : Fin 100000) (q : Fin 64), y = ix2 p q := ⟨y 0, y 1, eq_ix2 y⟩
  show A (ix2 p q) + val_main_v29 (F := Ideal) x7 (ix2 p q) = A (ix2 p q) + x7 (ix2 0 q)
  rw [val_main_v29_apply, val_main_v28_apply, val_main_v27_apply, val_main_v26_apply]
  exact congrArg (fun t => A (ix2 p q) + x7 t) (funext fun ax => Fin.ext (by
    match ax with
    | ⟨0, _⟩ => rfl
    | ⟨1, _⟩ => exact Nat.mod_eq_of_lt q.isLt))

/-- Row `1` of the stacked biases, sliced out, flattened, broadcast to a row and then down the rows, added: entry
    `(p, q)` gains `b (1, q)`. -/
theorem bias_1 (A : FVec Ideal S100000x64 .f32) (x7 : (⟨S3x64, .f32⟩ : BufTy).Contents (Elt Ideal)) :
    addf A (val_main_v48 (F := Ideal) x7) = addRow A (bsl 1 x7) := by
  funext y
  obtain ⟨p, q, rfl⟩ : ∃ (p : Fin 100000) (q : Fin 64), y = ix2 p q := ⟨y 0, y 1, eq_ix2 y⟩
  show A (ix2 p q) + val_main_v48 (F := Ideal) x7 (ix2 p q) = A (ix2 p q) + x7 (ix2 1 q)
  rw [val_main_v48_apply, val_main_v47_apply, val_main_v46_apply, val_main_v45_apply]
  exact congrArg (fun t => A (ix2 p q) + x7 t) (funext fun ax => Fin.ext (by
    match ax with
    | ⟨0, _⟩ => rfl
    | ⟨1, _⟩ => exact Nat.mod_eq_of_lt q.isLt))

/-- The maximum with the broadcast zero constant is the rectifier. -/
theorem relu_e (A : FVec Ideal S100000x256 .f32) : maximumf A (val_main_call0_v0 (F := Ideal)) = relu A := by
  funext y
  show max (A y) (val_main_call0_v0 (F := Ideal) y) = max (A y) (Ideal.ofBits .f32 0x00000000#32)
  rw [val_main_call0_v0_apply]
  rfl

/-- The maximum with the broadcast zero constant is the rectifier. -/
theorem relu_1 (A : FVec Ideal S100000x64 .f32) : maximumf A (val_main_call1_v0 (F := Ideal)) = relu A := by
  funext y
  show max (A y) (val_main_call1_v0 (F := Ideal) y) = max (A y) (Ideal.ofBits .f32 0x00000000#32)
  rw [val_main_call1_v0_apply]
  rfl

/-- The maximum with the broadcast zero constant is the rectifier. -/
theorem relu_2 (A : FVec Ideal S100000x64 .f32) : maximumf A (val_main_call2_v0 (F := Ideal)) = relu A := by
  funext y
  show max (A y) (val_main_call2_v0 (F := Ideal) y) = max (A y) (Ideal.ofBits .f32 0x00000000#32)
  rw [val_main_call2_v0_apply]
  rfl

/-- Block `0` of the stacked weights, sliced out and flattened to a `64 × 64` matrix: entry `(p, q)` is `w (0, p, q)`. -/
theorem w_0 (x6 : (⟨S3x64x64, .f32⟩ : BufTy).Contents (Elt Ideal)) : val_main_v14 (F := Ideal) x6 = wsl 0 x6 := by
  funext y
  obtain ⟨p, q, rfl⟩ : ∃ (p : Fin 64) (q : Fin 64), y = ix2 p q := ⟨y 0, y 1, eq_ix2 y⟩
  rw [val_main_v14_apply, val_main_v13_apply]
  show x6 _ = x6 (ix3 0 p q)
  refine congrArg x6 (funext fun ax => Fin.ext ?_)
  have hp := p.isLt
  have hq := q.isLt
  match ax with
  | ⟨0, _⟩ => rfl
  | ⟨1, _⟩ => show (p.val * 64 + q.val) / 64 % 64 = p.val; omega
  | ⟨2, _⟩ => show (p.val * 64 + q.val) % 64 = q.val; omega

/-- Block `1` of the stacked weights, sliced out and flattened to a `64 × 64` matrix: entry `(p, q)` is `w (1, p, q)`. -/
theorem w_1 (x6 : (⟨S3x64x64, .f32⟩ : BufTy).Contents (Elt Ideal)) : val_main_v33 (F := Ideal) x6 = wsl 1 x6 := by
  funext y
  obtain ⟨p, q, rfl⟩ : ∃ (p : Fin 64) (q : Fin 64), y = ix2 p q := ⟨y 0, y 1, eq_ix2 y⟩
  rw [val_main_v33_apply, val_main_v32_apply]
  show x6 _ = x6 (ix3 1 p q)
  refine congrArg x6 (funext fun ax => Fin.ext ?_)
  have hp := p.isLt
  have hq := q.isLt
  match ax with
  | ⟨0, _⟩ => rfl
  | ⟨1, _⟩ => show (p.val * 64 + q.val) / 64 % 64 = p.val; omega
  | ⟨2, _⟩ => show (p.val * 64 + q.val) % 64 = q.val; omega

/-- Block `2` of the stacked weights, sliced out and flattened to a `64 × 64` matrix: entry `(p, q)` is `w (2, p, q)`. -/
theorem w_2 (x6 : (⟨S3x64x64, .f32⟩ : BufTy).Contents (Elt Ideal)) : val_main_v52 (F := Ideal) x6 = wsl 2 x6 := by
  funext y
  obtain ⟨p, q, rfl⟩ : ∃ (p : Fin 64) (q : Fin 64), y = ix2 p q := ⟨y 0, y 1, eq_ix2 y⟩
  rw [val_main_v52_apply, val_main_v51_apply]
  show x6 _ = x6 (ix3 2 p q)
  refine congrArg x6 (funext fun ax => Fin.ext ?_)
  have hp := p.isLt
  have hq := q.isLt
  match ax with
  | ⟨0, _⟩ => rfl
  | ⟨1, _⟩ => show (p.val * 64 + q.val) / 64 % 64 = p.val; omega
  | ⟨2, _⟩ => show (p.val * 64 + q.val) % 64 = q.val; omega

end Hidden

open Hidden

/-- The last aggregation of the reference is the network's hidden part. -/
theorem ref_hidden (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v63 (F := Ideal) x0 x1 x2 x3 x4 x5 x6 x7
      = agg x1 (comb (agg x1 (comb (agg x1 (mm (enc x0 x2 x3 x4 x5) (wsl 0 x6))) (bsl 0 x7) (wsl 1 x6))) (bsl 1 x7) (wsl 2 x6)) := by
  unfold val_main_v63 val_main_v60
  rw [agg_c]
  unfold val_main_v53 val_main_v50 val_main_v49
  rw [dot_c, w_2, relu_2, bias_1]
  unfold val_main_v44 val_main_v41
  rw [agg_b]
  unfold val_main_v34 val_main_v31 val_main_v30
  rw [dot_c, w_1, relu_1, bias_0]
  unfold val_main_v25 val_main_v22
  rw [agg_a]
  unfold val_main_v15 val_main_v12 val_main_v9 val_main_v8 val_main_v7 val_main_v4
  rw [dot_c, w_0, bias_e1, dot_b, relu_e, bias_e0, dot_a]
  rfl

end Cert.ReferenceIdeal.Stage

end
-- ==== Proof.RDec.lean ====
/-
  The reference program's decoder, one operation at a time: bias and rectifier of the last aggregation, two dense layers
  with a rectifier between them, and jax's log-softmax — the row maximum (a reduction from minus infinity, then once
  more the maximum with minus infinity, which changes nothing), the shifted logits, and the logarithm of the row's sum
  of exponentials (a reduction from zero).
-/
import proofs.«165432_j22093311771370_1_alg».proof.Proof.PReadReferenceIdeal
import proofs.«165432_j22093311771370_1_alg».proof.Proof.Agg
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold

noncomputable section

namespace Cert.ReferenceIdeal.Stage

open Cert.ReferenceIdeal Cert.ReferenceIdeal.Gen Cert.ReferenceIdeal.Read Cert.Gcn Idealize.ShloMosaic Idealize.ShloMosaic.ValueIdx

/-! ## The last graph convolution's bias and rectifier -/

/-- The third of the stacked bias vectors, broadcast along the rows. -/
theorem bias2_at (x7 : (⟨S3x64, .f32⟩ : BufTy).Contents (Elt Ideal)) (p : Fin 100000) (q : Fin 64) :
    val_main_v67 (F := Ideal) x7 (ix2 p q) = bsl 2 x7 (ix1 q) := by
  rw [val_main_v67_apply, val_main_v66_apply, val_main_v65_apply, val_main_v64_apply]
  show x7 _ = x7 _
  refine congrArg x7 (funext fun a => Fin.ext ?_)
  match a with
  | ⟨0, _⟩ => rfl
  | ⟨1, _⟩ => exact Nat.mod_eq_of_lt q.isLt

/-- Bias, then the maximum with zero. -/
theorem hidden_act (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v69 (F := Ideal) x0 x1 x2 x3 x4 x5 x6 x7 = relu (addRow (val_main_v63 (F := Ideal) x0 x1 x2 x3 x4 x5 x6 x7) (bsl 2 x7)) := by
  funext i
  obtain ⟨p, q, rfl⟩ : ∃ (p : Fin 100000) (q : Fin 64), i = ix2 p q := ⟨i 0, i 1, eq_ix2 i⟩
  rw [val_main_v69_apply, val_main_v68_apply, val_main_call3_v0_apply, val_main_call3_cst_apply, bias2_at]
  rfl

/-! ## The decoder's first dense layer -/

theorem lidx70_eq (p : Fin 100000) (q : Fin 256) (k : Fin 64) : lidx_main_v70 (ix2 p q) k = ix2 p k :=
  funext fun a => Fin.ext (by match a with | ⟨0, _⟩ => rfl | ⟨1, _⟩ => rfl)
theorem ridx70_eq (p : Fin 100000) (q : Fin 256) (k : Fin 64) : ridx_main_v70 (ix2 p q) k = ix2 k q :=
  funext fun a => Fin.ext (by match a with | ⟨0, _⟩ => rfl | ⟨1, _⟩ => rfl)

/-- The product with the first decoder weight. -/
theorem dec0_mm (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) :
    val_main_v70 (F := Ideal) x0 x1 x2 x3 x4 x5 x6 x7 x8 = mm (val_main_v69 (F := Ideal) x0 x1 x2 x3 x4 x5 x6 x7) x8 := by
  funext i
  obtain ⟨p, q, rfl⟩ : ∃ (p : Fin 100000) (q : Fin 256), i = ix2 p q := ⟨i 0, i 1, eq_ix2 i⟩
  rw [val_main_v70_apply]
  simp only [lidx70_eq, ridx70_eq]
  rfl

theorem bias9_at (x9 : (⟨S256, .f32⟩ : BufTy).Contents (Elt Ideal)) (p : Fin 100000) (q : Fin 256) :
    val_main_v72 (F := Ideal) x9 (ix2 p q) = x9 (ix1 q) := by
  rw [val_main_v72_apply, val_main_v71_apply]
  exact congrArg x9 (funext fun a => Fin.ext (by match a with | ⟨0, _⟩ => rfl))

/-- Its bias. -/
theorem dec0_bias (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) :
    val_main_v73 (F := Ideal) x0 x1 x2 x3 x4 x5 x6 x7 x8 x9 = addRow (val_main_v70 (F := Ideal) x0 x1 x2 x3 x4 x5 x6 x7 x8) x9 := by
  funext i
  obtain ⟨p, q, rfl⟩ : ∃ (p : Fin 100000) (q : Fin 256), i = ix2 p q := ⟨i 0, i 1, eq_ix2 i⟩
  rw [val_main_v73_apply, bias9_at]
  rfl

/-- Its rectifier. -/
theorem dec0_act (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) :
    val_main_v74 (F := Ideal) x0 x1 x2 x3 x4 x5 x6 x7 x8 x9 = relu (val_main_v73 (F := Ideal) x0 x1 x2 x3 x4 x5 x6 x7 x8 x9) := by
  funext i
  rw [val_main_v74_apply, val_main_call4_v0_apply, val_main_call4_cst_apply]
  rfl

/-! ## The decoder's second dense layer: the logits -/

theorem lidx75_eq (p : Fin 100000) (q : Fin 40) (k : Fin 256) : lidx_main_v75 (ix2 p q) k = ix2 p k :=
  funext fun a => Fin.ext (by match a with | ⟨0, _⟩ => rfl | ⟨1, _⟩ => rfl)
theorem ridx75_eq (p : Fin 100000) (q : Fin 40) (k : Fin 256) : ridx_main_v75 (ix2 p q) k = ix2 k q :=
  funext fun a => Fin.ext (by match a with | ⟨0, _⟩ => rfl | ⟨1, _⟩ => rfl)

/-- The product with the second decoder weight. -/
theorem dec1_mm (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) :
    val_main_v75 (F := Ideal) x0 x1 x2 x3 x4 x5 x6 x7 x8 x9 x10 = mm (val_main_v74 (F := Ideal) x0 x1 x2 x3 x4 x5 x6 x7 x8 x9) x10 := by
  funext i
  obtain ⟨p, q, rfl⟩ : ∃ (p : Fin 100000) (q : Fin 40), i = ix2 p q := ⟨i 0, i 1, eq_ix2 i⟩
  rw [val_main_v75_apply]
  simp only [lidx75_eq, ridx75_eq]
  rfl

theorem bias11_at (x11 : (⟨S40, .f32⟩ : BufTy).Contents (Elt Ideal)) (p : Fin 100000) (q : Fin 40) :
    val_main_v77 (F := Ideal) x11 (ix2 p q) = x11 (ix1 q) := by
  rw [val_main_v77_apply, val_main_v76_apply]
  exact congrArg x11 (funext fun a => Fin.ext (by match a with | ⟨0, _⟩ => rfl))

/-- Its bias. -/
theorem dec1_bias (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) :
    val_main_v78 (F := Ideal) x0 x1 x2 x3 x4 x5 x6 x7 x8 x9 x10 x11 = addRow (val_main_v75 (F := Ideal) x0 x1 x2 x3 x4 x5 x6 x7 x8 x9 x10) x11 := by
  funext i
  obtain ⟨p, q, rfl⟩ : ∃ (p : Fin 100000) (q : Fin 40), i = ix2 p q := ⟨i 0, i 1, eq_ix2 i⟩
  rw [val_main_v78_apply, bias11_at]
  rfl

/-- The logits are the two dense layers applied to the rectified, biased last aggregation. -/
theorem logits_eq (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) :
    val_main_v78 (F := Ideal) x0 x1 x2 x3 x4 x5 x6 x7 x8 x9 x10 x11
      = addRow (mm (relu (addRow (mm (relu (addRow (val_main_v63 (F := Ideal) x0 x1 x2 x3 x4 x5 x6 x7) (bsl 2 x7))) x8) x9)) x10) x11 := by
  rw [dec1_bias, dec1_mm, dec0_act, dec0_bias, dec0_mm, hidden_act]

/-! ## The log-softmax of the logits -/

/-- A reduction by the maximum along the rows, from minus infinity, is the row's maximum. -/
theorem rowmax_read (L : Mat 100000 40) (p : Fin 100000) :
    Host.reduce (FloatOps.maximumf (F := Ideal) (φ := .f32)) L (val_main_call5_cst (F := Ideal)) reducesTo_S100000x40_S100000_d1 h_S_ (ix1 p)
      = rowMax L p := by
  rw [Host.reduce_eq_fold_single (FloatOps.maximumf (F := Ideal) (φ := .f32)) L (val_main_call5_cst (F := Ideal))
    reducesTo_S100000x40_S100000_d1 (by decide : S100000x40.Reduces [1] S100000) h_S_ (ix1 p)]
  exact Finset.fold_congr (fun k _ => congrArg L (funext fun a => Fin.ext (by match a with | ⟨0, _⟩ => rfl | ⟨1, _⟩ => rfl)))

/-- The maximum of minus infinity and a fold of maxima started at minus infinity is that fold. -/
theorem rowmax_again (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) (p : Fin 100000) :
    val_main_call5_v2 (F := Ideal) x0 x1 x2 x3 x4 x5 x6 x7 x8 x9 x10 x11 (ix1 p) = rowMax (val_main_v78 (F := Ideal) x0 x1 x2 x3 x4 x5 x6 x7 x8 x9 x10 x11) p := by
  rw [val_main_call5_v2_apply, val_main_call5_v1_apply, val_main_call5_cst_0_apply]
  unfold val_main_call5_v0
  rw [rowmax_read]
  exact max_eq_right ((Finset.le_fold_max _).2 (Or.inl le_rfl))

/-- The row's maximum, laid back along the row. -/
theorem rowmax_bcast (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) (p : Fin 100000) (q : Fin 40) :
    val_main_call5_v4 (F := Ideal) x0 x1 x2 x3 x4 x5 x6 x7 x8 x9 x10 x11 (ix2 p q) = rowMax (val_main_v78 (F := Ideal) x0 x1 x2 x3 x4 x5 x6 x7 x8 x9 x10 x11) p := by
  rw [val_main_call5_v4_apply, val_main_call5_v3_apply,
    show idx_main_call5_v3 (idx_main_call5_v4 (ix2 p q)) = ix1 p from
      funext fun a => Fin.ext (by match a with | ⟨0, _⟩ => rfl),
    rowmax_again]

/-- The shifted logits. -/
theorem shifted_at (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) (p : Fin 100000) (q : Fin 40) :
    val_main_call5_v5 (F := Ideal) x0 x1 x2 x3 x4 x5 x6 x7 x8 x9 x10 x11 (ix2 p q) = (val_main_v78 (F := Ideal) x0 x1 x2 x3 x4 x5 x6 x7 x8 x9 x10 x11) (ix2 p q) - rowMax (val_main_v78 (F := Ideal) x0 x1 x2 x3 x4 x5 x6 x7 x8 x9 x10 x11) p := by
  rw [val_main_call5_v5_apply, rowmax_bcast]
  rfl

/-- The row's sum of exponentials: a sum from zero. -/
theorem sumexp_at (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) (p : Fin 100000) :
    val_main_call5_v7 (F := Ideal) x0 x1 x2 x3 x4 x5 x6 x7 x8 x9 x10 x11 (ix1 p)
      = ∑ q : Fin 40, Ideal.exp ((val_main_v78 (F := Ideal) x0 x1 x2 x3 x4 x5 x6 x7 x8 x9 x10 x11) (ix2 p q) - rowMax (val_main_v78 (F := Ideal) x0 x1 x2 x3 x4 x5 x6 x7 x8 x9 x10 x11) p) := by
  rw [val_main_call5_v7_apply, val_main_call5_cst_1_apply]
  show Ideal.ofBits .f32 0x00000000#32 + _ = _
  rw [Ideal.ofBits_zero_f32, zero_add]
  refine Finset.sum_congr rfl fun k _ => ?_
  rw [show idx_main_call5_v7 (ix1 p) k = ix2 p k from
      funext fun a => Fin.ext (by match a with | ⟨0, _⟩ => rfl | ⟨1, _⟩ => rfl),
    val_main_call5_v6_apply, shifted_at, Ideal.hostUnary_exp_def]

/-- Its logarithm, laid back along the row. -/
theorem logsum_at (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) (p : Fin 100000) (q : Fin 40) :
    val_main_call5_v10 (F := Ideal) x0 x1 x2 x3 x4 x5 x6 x7 x8 x9 x10 x11 (ix2 p q)
      = Ideal.log (∑ q' : Fin 40, Ideal.exp ((val_main_v78 (F := Ideal) x0 x1 x2 x3 x4 x5 x6 x7 x8 x9 x10 x11) (ix2 p q') - rowMax (val_main_v78 (F := Ideal) x0 x1 x2 x3 x4 x5 x6 x7 x8 x9 x10 x11) p)) := by
  rw [val_main_call5_v10_apply, val_main_call5_v9_apply, val_main_call5_v8_apply,
    show idx_main_call5_v8 (idx_main_call5_v10 (ix2 p q)) = ix1 p from
      funext fun a => Fin.ext (by match a with | ⟨0, _⟩ => rfl),
    sumexp_at, Ideal.hostUnary_log_def]

/-- The result is the log-softmax of the logits. -/
theorem result_lsm (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) :
    val_main_v79 (F := Ideal) x0 x1 x2 x3 x4 x5 x6 x7 x8 x9 x10 x11 = lsm (val_main_v78 (F := Ideal) x0 x1 x2 x3 x4 x5 x6 x7 x8 x9 x10 x11) := by
  funext i
  obtain ⟨p, q, rfl⟩ : ∃ (p : Fin 100000) (q : Fin 40), i = ix2 p q := ⟨i 0, i 1, eq_ix2 i⟩
  rw [val_main_v79_apply, shifted_at, logsum_at]
  rfl

/-- The reference's result is the decoder of its last aggregation. -/
theorem ref_dec (x0 : (⟨S100000x128, .f32⟩ : BufTy).Contents (Elt Ideal)) (x1 : (⟨S2x1200000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S64x256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal)) :
    val_main_v79 (F := Ideal) x0 x1 x2 x3 x4 x5 x6 x7 x8 x9 x10 x11
      = dec (val_main_v63 (F := Ideal) x0 x1 x2 x3 x4 x5 x6 x7) (bsl 2 x7) x8 x9 x10 x11 := by
  rw [result_lsm, logits_eq]
  rfl

end Cert.ReferenceIdeal.Stage

end
-- ==== Proof.Bridge.lean ====
/-
  Both programs compute the network `model` (Agg.lean) of their twelve arguments.  The idealized kernel program: its
  run leaves the result array at the last boundary's contents (PRunKernelIdeal.lean), which are the network of the
  arguments as launched (KChain.lean).  The idealized reference: its run leaves the result at the fold of its 113 host
  operations over the launch contents, which is the last stage's value of the arguments (RRun.lean), the decoder of the
  last aggregation (RDec.lean), whose argument is the network's hidden part (RHidden.lean).
-/
import proofs.«165432_j22093311771370_1_alg».proof.Proof.PRunKernelIdeal
import proofs.«165432_j22093311771370_1_alg».proof.Proof.KChain
import proofs.«165432_j22093311771370_1_alg».proof.Proof.PRunReferenceIdeal
import proofs.«165432_j22093311771370_1_alg».proof.Proof.RRun
import proofs.«165432_j22093311771370_1_alg».proof.Proof.RHidden
import proofs.«165432_j22093311771370_1_alg».proof.Proof.RDec

noncomputable section

namespace Cert.Proof.Net

open Idealize.ShloMosaic Idealize.ShloMosaic.TcCoe Idealize.SL.Sem Cert.Gcn

/-- The idealized kernel program runs, ends with its result at the network of its arguments, and keeps its arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v57)
        = model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun r h c => ⟨(h c).1.trans (Cert.KernelIdeal.Chain.kernel_value m ρ c), (h c).2⟩)
    (Cert.KernelIdeal.Gen.run_value (F := Ideal) m ρ)

/-- The reference's last stage is the network of the arguments. -/
theorem ref_value (x0 : (⟨Cert.ReferenceIdeal.S100000x128, .f32⟩ : BufTy).Contents (Elt Ideal)) (x1 : (⟨Cert.ReferenceIdeal.S2x1200000, .i32⟩ : BufTy).Contents (Elt Ideal)) (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S256x64, .f32⟩ : BufTy).Contents (Elt Ideal)) (x5 : (⟨Cert.ReferenceIdeal.S64, .f32⟩ : BufTy).Contents (Elt Ideal)) (x6 : (⟨Cert.ReferenceIdeal.S3x64x64, .f32⟩ : BufTy).Contents (Elt Ideal)) (x7 : (⟨Cert.ReferenceIdeal.S3x64, .f32⟩ : BufTy).Contents (Elt Ideal)) (x8 : (⟨Cert.ReferenceIdeal.S64x256, .f32⟩ : BufTy).Contents (Elt Ideal)) (x9 : (⟨Cert.ReferenceIdeal.S256, .f32⟩ : BufTy).Contents (Elt Ideal)) (x10 : (⟨Cert.ReferenceIdeal.S256x40, .f32⟩ : BufTy).Contents (Elt Ideal)) (x11 : (⟨Cert.ReferenceIdeal.S40, .f32⟩ : BufTy).Contents (Elt Ideal)) :
    Cert.ReferenceIdeal.Read.val_main_v79 (F := Ideal) x0 x1 x2 x3 x4 x5 x6 x7 x8 x9 x10 x11 = model x0 x1 x2 x3 x4 x5 x6 x7 x8 x9 x10 x11 := by
  rw [Cert.ReferenceIdeal.Stage.ref_dec, Cert.ReferenceIdeal.Stage.ref_hidden]
  rfl

/-- The idealized reference runs, ends with its result at the network of its arguments, and keeps its arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v79)
        = model (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun r h c => ⟨(h c).1.trans ((Cert.ReferenceIdeal.Stage.after_ops _).trans (ref_value _ _ _ _ _ _ _ _ _ _ _ _)), (h c).2⟩)
    (Cert.ReferenceIdeal.Value.run (F := Ideal) m ρ)

end Cert.Proof.Net

end
-- ==== Proof.lean ====
/-
  The certificate of the stacked graph-convolution kernel against its jnp reference: both idealized programs compute the
  same network of their arguments over the extended reals — an encoder of two dense layers, three rounds of "weight,
  gather along the edges' sources and sum into their destinations, bias, rectifier", a decoder of two dense layers and a
  log-softmax along the classes.  The kernel program tiles each dense stage over fifty blocks of 2000 rows; since every
  dense stage acts on a matrix row by row, the tiled stage is the stage on all 100000 rows, and the aggregation between
  the stages is the very same host operations in both programs.  No law of arithmetic beyond "a matrix product into a
  zero accumulator is the sum of products" joins the two sides, so the precondition (finite inputs) is never opened.
  The three frames: the two kernel programs' by their frame runs, the reference's by its run with the result dropped.
  The idealization rewrote nothing, so `preserves` has nothing to state.
-/
import proofs.«165432_j22093311771370_1_alg».proof.Defs
import proofs.«165432_j22093311771370_1_alg».proof.Proof.Gen.Kernel
import proofs.«165432_j22093311771370_1_alg».proof.Proof.Gen.Kernel.Skeleton
import proofs.«165432_j22093311771370_1_alg».proof.Proof.PLaunchKernel
import proofs.«165432_j22093311771370_1_alg».proof.Proof.Gen.Kernel.Points
import proofs.«165432_j22093311771370_1_alg».proof.Proof.PFrameKernel
import proofs.«165432_j22093311771370_1_alg».proof.Proof.Gen.KernelIdeal
import proofs.«165432_j22093311771370_1_alg».proof.Proof.Gen.KernelIdeal.Skeleton
import proofs.«165432_j22093311771370_1_alg».proof.Proof.PLaunchKernelIdeal
import proofs.«165432_j22093311771370_1_alg».proof.Proof.Gen.KernelIdeal.Points
import proofs.«165432_j22093311771370_1_alg».proof.Proof.PFrameKernelIdeal
import proofs.«165432_j22093311771370_1_alg».proof.Proof.Gen.ReferenceIdeal
import proofs.«165432_j22093311771370_1_alg».proof.Proof.PRunReferenceIdeal
import proofs.«165432_j22093311771370_1_alg».proof.Proof.Gen.Pre_finite_inputs
import proofs.«165432_j22093311771370_1_alg».proof.Proof.Bridge
import Idealize.ShloMosaic.Adequacy
import Idealize.ShloMosaic.Init

noncomputable section

namespace Cert.Proof

open Idealize.ShloMosaic Idealize.SL.Sem Cert.Gcn

/-- The word-level kernel program runs and keeps its arguments: its frame run. -/
theorem frame_k : Cert.frame_Kernel := fun m ρ _ => Cert.Kernel.Gen.frame m ρ

/-- The idealized kernel program runs and keeps its arguments: its frame run. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the network of those arguments. -/
theorem algebraic : Cert.algebraic_KernelIdeal_ReferenceIdeal := by
  intro m ρ m' ρ' _ hagree
  refine ⟨_, Net.kernel_run m ρ, ?_⟩
  refine (θ_run (Cert.ReferenceIdeal.defs (F := Ideal)) _ _).mono (fun r h c => ⟨(h c).1.trans ?_, (h c).2⟩) (Net.ref_run m' ρ')
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
